-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x197x196x768 : Shape := ⟨4, ![8, 197, 196, 768]⟩
abbrev S64x768 : Shape := ⟨2, ![64, 768]⟩
abbrev S196x64 : Shape := ⟨2, ![196, 64]⟩
abbrev S_ : Shape := ⟨0, ![]⟩

class Facts : Prop where
  bcast_S_S8x197x196x768 : S_.BroadcastsInDim S8x197x196x768 (![] : Fin 0 → Fin S8x197x196x768.rank)
  reducesTo_S8x197x196x768_S_d0_1_2_3 : S8x197x196x768.ReducesTo [0, 1, 2, 3] S_
  h_S_ : 0 < S_.numel
  bcast_S_S64x768 : S_.BroadcastsInDim S64x768 (![] : Fin 0 → Fin S64x768.rank)
  reducesTo_S64x768_S_d0_1 : S64x768.ReducesTo [0, 1] S_
  bcast_S_S196x64 : S_.BroadcastsInDim S196x64 (![] : Fin 0 → Fin S196x64.rank)
  reducesTo_S196x64_S_d0_1 : S196x64.ReducesTo [0, 1] S_

variable [Facts]

def fn {F : FTy → Type} [FloatOps F] (main_arg0 : FVec F S8x197x196x768 .f32) (main_arg1 : FVec F S64x768 .f32) (main_arg2 : FVec F S196x64 .f32) : IVec S_ 1 :=
  let main_v0 : FVec F S8x197x196x768 .f32 := Host.absf main_arg0
  let main_cst : FVec F S_ .f32 := constant S_ .f32 0x7F800000#32
  let main_v1 : FVec F S8x197x196x768 .f32 := broadcastInDim S8x197x196x768 ![] bcast_S_S8x197x196x768 main_cst
  let main_v2 : IVec S8x197x196x768 1 := cmpf .olt main_v0 main_v1
  let main_c : IVec S_ 1 := constantI S_ 1 1#1
  let main_v3 : IVec S_ 1 := (fun x v => Host.reduce IntOp.andi x v reducesTo_S8x197x196x768_S_d0_1_2_3 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S196x64 .f32 := Host.absf main_arg2
  let main_cst_2 : FVec F S_ .f32 := constant S_ .f32 0x7F800000#32
  let main_v10 : FVec F S196x64 .f32 := broadcastInDim S196x64 ![] bcast_S_S196x64 main_cst_2
  let main_v11 : IVec S196x64 1 := cmpf .olt main_v9 main_v10
  let main_c_3 : IVec S_ 1 := constantI S_ 1 1#1
  let main_v12 : IVec S_ 1 := (fun x v => Host.reduce IntOp.andi x v reducesTo_S196x64_S_d0_1 h_S_) main_v11 main_c_3
  let main_v13 : IVec S_ 1 := andi main_v8 main_v12
  main_v13
-- ==== Kernel.lean ====
abbrev S8x197x196x768 : Shape := ⟨4, ![8, 197, 196, 768]⟩
abbrev S64x768 : Shape := ⟨2, ![64, 768]⟩
abbrev S196x64 : Shape := ⟨2, ![196, 64]⟩
abbrev S1576x196x768 : Shape := ⟨3, ![1576, 196, 768]⟩
abbrev S1576x64x64 : Shape := ⟨3, ![1576, 64, 64]⟩
abbrev S32x196x768 : Shape := ⟨3, ![32, 196, 768]⟩
abbrev S32x64x64 : Shape := ⟨3, ![32, 64, 64]⟩
abbrev S768x64 : Shape := ⟨2, ![768, 64]⟩
abbrev S1x196x768 : Shape := ⟨3, ![1, 196, 768]⟩
abbrev S196x768 : Shape := ⟨2, ![196, 768]⟩
abbrev S64x196 : Shape := ⟨2, ![64, 196]⟩
abbrev S64x64 : Shape := ⟨2, ![64, 64]⟩
abbrev S1x64x64 : Shape := ⟨3, ![1, 64, 64]⟩
abbrev S8x197x64x64 : Shape := ⟨4, ![8, 197, 64, 64]⟩

abbrev nBuf : Space → Nat
  | .hbm => 6
  | .vmem => 6
  | .smem => 0
  | _ => 0

abbrev bufTy : (tb : Table) → Fin (tcTables nBuf tb) → BufTy
  | .hbm, ⟨0, _⟩ => ⟨S8x197x196x768, .f32⟩
  | .hbm, ⟨1, _⟩ => ⟨S64x768, .f32⟩
  | .hbm, ⟨2, _⟩ => ⟨S196x64, .f32⟩
  | .hbm, ⟨3, _⟩ => ⟨S1576x196x768, .f32⟩
  | .hbm, ⟨4, _⟩ => ⟨S1576x64x64, .f32⟩
  | .hbm, ⟨5, _⟩ => ⟨S8x197x64x64, .f32⟩
  | .local _ .vmem, ⟨0, _⟩ => ⟨S32x196x768, .f32⟩
  | .local _ .vmem, ⟨1, _⟩ => ⟨S32x196x768, .f32⟩
  | .local _ .vmem, ⟨2, _⟩ => ⟨S64x768, .f32⟩
  | .local _ .vmem, ⟨3, _⟩ => ⟨S196x64, .f32⟩
  | .local _ .vmem, ⟨4, _⟩ => ⟨S32x64x64, .f32⟩
  | .local _ .vmem, ⟨5, _⟩ => ⟨S32x64x64, .f32⟩
  | _, _ => ⟨S8x197x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S196x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x197x196x768_S1576x196x768 : S8x197x196x768.ShapeCasts S1576x196x768
  inb_S64x768_S64x768_0_0 : ∀ a, (![0, 0] : Fin 2 → Nat) a + S64x768.size a ≤ S64x768.size a
  h_S64x768 : 0 < S64x768.numel
  transposes_S64x768_p1_0_S768x64 : S64x768.Transposes [1, 0] S768x64
  bitsLt_bf16_f32 : FTy.bits .bf16 < FTy.bits .f32
  inb_S196x64_S196x64_0_0 : ∀ a, (![0, 0] : Fin 2 → Nat) a + S196x64.size a ≤ S196x64.size a
  h_S196x64 : 0 < S196x64.numel
  inb_S32x196x768_S1x196x768_0_0_0 : ∀ a, (![0, 0, 0] : Fin 3 → Nat) a + S1x196x768.size a ≤ S32x196x768.size a
  h_S1x196x768 : 0 < S1x196x768.numel
  shapeCasts_S1x196x768_S196x768 : S1x196x768.ShapeCasts S196x768
  transposes_S196x64_p1_0_S64x196 : S196x64.Transposes [1, 0] S64x196
  inb_S32x64x64_S1x64x64_0_0_0 : ∀ a, (![0, 0, 0] : Fin 3 → Nat) a + S1x64x64.size a ≤ S32x64x64.size a
  h_S1x64x64 : 0 < S1x64x64.numel
  shapeCasts_S1x64x64_S64x64 : S1x64x64.ShapeCasts S64x64
  shapeCasts_S64x64_S1x64x64 : S64x64.ShapeCasts S1x64x64
  inb_S32x196x768_S1x196x768_1_0_0 : ∀ a, (![1, 0, 0] : Fin 3 → Nat) a + S1x196x768.size a ≤ S32x196x768.size a
  inb_S32x64x64_S1x64x64_1_0_0 : ∀ a, (![1, 0, 0] : Fin 3 → Nat) a + S1x64x64.size a ≤ S32x64x64.size a
  inb_S32x196x768_S1x196x768_2_0_0 : ∀ a, (![2, 0, 0] : Fin 3 → Nat) a + S1x196x768.size a ≤ S32x196x768.size a
  inb_S32x64x64_S1x64x64_2_0_0 : ∀ a, (![2, 0, 0] : Fin 3 → Nat) a + S1x64x64.size a ≤ S32x64x64.size a
  inb_S32x196x768_S1x196x768_3_0_0 : ∀ a, (![3, 0, 0] : Fin 3 → Nat) a + S1x196x768.size a ≤ S32x196x768.size a
  inb_S32x64x64_S1x64x64_3_0_0 : ∀ a, (![3, 0, 0] : Fin 3 → Nat) a + S1x64x64.size a ≤ S32x64x64.size a
  inb_S32x196x768_S1x196x768_4_0_0 : ∀ a, (![4, 0, 0] : Fin 3 → Nat) a + S1x196x768.size a ≤ S32x196x768.size a
  inb_S32x64x64_S1x64x64_4_0_0 : ∀ a, (![4, 0, 0] : Fin 3 → Nat) a + S1x64x64.size a ≤ S32x64x64.size a
  inb_S32x196x768_S1x196x768_5_0_0 : ∀ a, (![5, 0, 0] : Fin 3 → Nat) a + S1x196x768.size a ≤ S32x196x768.size a
  inb_S32x64x64_S1x64x64_5_0_0 : ∀ a, (![5, 0, 0] : Fin 3 → Nat) a + S1x64x64.size a ≤ S32x64x64.size a
  inb_S32x196x768_S1x196x768_6_0_0 : ∀ a, (![6, 0, 0] : Fin 3 → Nat) a + S1x196x768.size a ≤ S32x196x768.size a
  inb_S32x64x64_S1x64x64_6_0_0 : ∀ a, (![6, 0, 0] : Fin 3 → Nat) a + S1x64x64.size a ≤ S32x64x64.size a
  inb_S32x196x768_S1x196x768_7_0_0 : ∀ a, (![7, 0, 0] : Fin 3 → Nat) a + S1x196x768.size a ≤ S32x196x768.size a
  inb_S32x64x64_S1x64x64_7_0_0 : ∀ a, (![7, 0, 0] : Fin 3 → Nat) a + S1x64x64.size a ≤ S32x64x64.size a
  inb_S32x196x768_S1x196x768_8_0_0 : ∀ a, (![8, 0, 0] : Fin 3 → Nat) a + S1x196x768.size a ≤ S32x196x768.size a
  inb_S32x64x64_S1x64x64_8_0_0 : ∀ a, (![8, 0, 0] : Fin 3 → Nat) a + S1x64x64.size a ≤ S32x64x64.size a
  inb_S32x196x768_S1x196x768_9_0_0 : ∀ a, (![9, 0, 0] : Fin 3 → Nat) a + S1x196x768.size a ≤ S32x196x768.size a
  inb_S32x64x64_S1x64x64_9_0_0 : ∀ a, (![9, 0, 0] : Fin 3 → Nat) a + S1x64x64.size a ≤ S32x64x64.size a
  inb_S32x196x768_S1x196x768_10_0_0 : ∀ a, (![10, 0, 0] : Fin 3 → Nat) a + S1x196x768.size a ≤ S32x196x768.size a
  inb_S32x64x64_S1x64x64_10_0_0 : ∀ a, (![10, 0, 0] : Fin 3 → Nat) a + S1x64x64.size a ≤ S32x64x64.size a
  inb_S32x196x768_S1x196x768_11_0_0 : ∀ a, (![11, 0, 0] : Fin 3 → Nat) a + S1x196x768.size a ≤ S32x196x768.size a
  inb_S32x64x64_S1x64x64_11_0_0 : ∀ a, (![11, 0, 0] : Fin 3 → Nat) a + S1x64x64.size a ≤ S32x64x64.size a
  inb_S32x196x768_S1x196x768_12_0_0 : ∀ a, (![12, 0, 0] : Fin 3 → Nat) a + S1x196x768.size a ≤ S32x196x768.size a
  inb_S32x64x64_S1x64x64_12_0_0 : ∀ a, (![12, 0, 0] : Fin 3 → Nat) a + S1x64x64.size a ≤ S32x64x64.size a
  inb_S32x196x768_S1x196x768_13_0_0 : ∀ a, (![13, 0, 0] : Fin 3 → Nat) a + S1x196x768.size a ≤ S32x196x768.size a
  inb_S32x64x64_S1x64x64_13_0_0 : ∀ a, (![13, 0, 0] : Fin 3 → Nat) a + S1x64x64.size a ≤ S32x64x64.size a
  inb_S32x196x768_S1x196x768_14_0_0 : ∀ a, (![14, 0, 0] : Fin 3 → Nat) a + S1x196x768.size a ≤ S32x196x768.size a
  inb_S32x64x64_S1x64x64_14_0_0 : ∀ a, (![14, 0, 0] : Fin 3 → Nat) a + S1x64x64.size a ≤ S32x64x64.size a
  inb_S32x196x768_S1x196x768_15_0_0 : ∀ a, (![15, 0, 0] : Fin 3 → Nat) a + S1x196x768.size a ≤ S32x196x768.size a
  inb_S32x64x64_S1x64x64_15_0_0 : ∀ a, (![15, 0, 0] : Fin 3 → Nat) a + S1x64x64.size a ≤ S32x64x64.size a
  inb_S32x196x768_S1x196x768_16_0_0 : ∀ a, (![16, 0, 0] : Fin 3 → Nat) a + S1x196x768.size a ≤ S32x196x768.size a
  inb_S32x64x64_S1x64x64_16_0_0 : ∀ a, (![16, 0, 0] : Fin 3 → Nat) a + S1x64x64.size a ≤ S32x64x64.size a
  inb_S32x196x768_S1x196x768_17_0_0 : ∀ a, (![17, 0, 0] : Fin 3 → Nat) a + S1x196x768.size a ≤ S32x196x768.size a
  inb_S32x64x64_S1x64x64_17_0_0 : ∀ a, (![17, 0, 0] : Fin 3 → Nat) a + S1x64x64.size a ≤ S32x64x64.size a
  inb_S32x196x768_S1x196x768_18_0_0 : ∀ a, (![18, 0, 0] : Fin 3 → Nat) a + S1x196x768.size a ≤ S32x196x768.size a
  inb_S32x64x64_S1x64x64_18_0_0 : ∀ a, (![18, 0, 0] : Fin 3 → Nat) a + S1x64x64.size a ≤ S32x64x64.size a
  inb_S32x196x768_S1x196x768_19_0_0 : ∀ a, (![19, 0, 0] : Fin 3 → Nat) a + S1x196x768.size a ≤ S32x196x768.size a
  inb_S32x64x64_S1x64x64_19_0_0 : ∀ a, (![19, 0, 0] : Fin 3 → Nat) a + S1x64x64.size a ≤ S32x64x64.size a
  inb_S32x196x768_S1x196x768_20_0_0 : ∀ a, (![20, 0, 0] : Fin 3 → Nat) a + S1x196x768.size a ≤ S32x196x768.size a
  inb_S32x64x64_S1x64x64_20_0_0 : ∀ a, (![20, 0, 0] : Fin 3 → Nat) a + S1x64x64.size a ≤ S32x64x64.size a
  inb_S32x196x768_S1x196x768_21_0_0 : ∀ a, (![21, 0, 0] : Fin 3 → Nat) a + S1x196x768.size a ≤ S32x196x768.size a
  inb_S32x64x64_S1x64x64_21_0_0 : ∀ a, (![21, 0, 0] : Fin 3 → Nat) a + S1x64x64.size a ≤ S32x64x64.size a
  inb_S32x196x768_S1x196x768_22_0_0 : ∀ a, (![22, 0, 0] : Fin 3 → Nat) a + S1x196x768.size a ≤ S32x196x768.size a
  inb_S32x64x64_S1x64x64_22_0_0 : ∀ a, (![22, 0, 0] : Fin 3 → Nat) a + S1x64x64.size a ≤ S32x64x64.size a
  inb_S32x196x768_S1x196x768_23_0_0 : ∀ a, (![23, 0, 0] : Fin 3 → Nat) a + S1x196x768.size a ≤ S32x196x768.size a
  inb_S32x64x64_S1x64x64_23_0_0 : ∀ a, (![23, 0, 0] : Fin 3 → Nat) a + S1x64x64.size a ≤ S32x64x64.size a
  inb_S32x196x768_S1x196x768_24_0_0 : ∀ a, (![24, 0, 0] : Fin 3 → Nat) a + S1x196x768.size a ≤ S32x196x768.size a
  inb_S32x64x64_S1x64x64_24_0_0 : ∀ a, (![24, 0, 0] : Fin 3 → Nat) a + S1x64x64.size a ≤ S32x64x64.size a
  inb_S32x196x768_S1x196x768_25_0_0 : ∀ a, (![25, 0, 0] : Fin 3 → Nat) a + S1x196x768.size a ≤ S32x196x768.size a
  inb_S32x64x64_S1x64x64_25_0_0 : ∀ a, (![25, 0, 0] : Fin 3 → Nat) a + S1x64x64.size a ≤ S32x64x64.size a
  inb_S32x196x768_S1x196x768_26_0_0 : ∀ a, (![26, 0, 0] : Fin 3 → Nat) a + S1x196x768.size a ≤ S32x196x768.size a
  inb_S32x64x64_S1x64x64_26_0_0 : ∀ a, (![26, 0, 0] : Fin 3 → Nat) a + S1x64x64.size a ≤ S32x64x64.size a
  inb_S32x196x768_S1x196x768_27_0_0 : ∀ a, (![27, 0, 0] : Fin 3 → Nat) a + S1x196x768.size a ≤ S32x196x768.size a
  inb_S32x64x64_S1x64x64_27_0_0 : ∀ a, (![27, 0, 0] : Fin 3 → Nat) a + S1x64x64.size a ≤ S32x64x64.size a
  inb_S32x196x768_S1x196x768_28_0_0 : ∀ a, (![28, 0, 0] : Fin 3 → Nat) a + S1x196x768.size a ≤ S32x196x768.size a
  inb_S32x64x64_S1x64x64_28_0_0 : ∀ a, (![28, 0, 0] : Fin 3 → Nat) a + S1x64x64.size a ≤ S32x64x64.size a
  inb_S32x196x768_S1x196x768_29_0_0 : ∀ a, (![29, 0, 0] : Fin 3 → Nat) a + S1x196x768.size a ≤ S32x196x768.size a
  inb_S32x64x64_S1x64x64_29_0_0 : ∀ a, (![29, 0, 0] : Fin 3 → Nat) a + S1x64x64.size a ≤ S32x64x64.size a
  inb_S32x196x768_S1x196x768_30_0_0 : ∀ a, (![30, 0, 0] : Fin 3 → Nat) a + S1x196x768.size a ≤ S32x196x768.size a
  inb_S32x64x64_S1x64x64_30_0_0 : ∀ a, (![30, 0, 0] : Fin 3 → Nat) a + S1x64x64.size a ≤ S32x64x64.size a
  inb_S32x196x768_S1x196x768_31_0_0 : ∀ a, (![31, 0, 0] : Fin 3 → Nat) a + S1x196x768.size a ≤ S32x196x768.size a
  inb_S32x64x64_S1x64x64_31_0_0 : ∀ a, (![31, 0, 0] : Fin 3 → Nat) a + S1x64x64.size a ≤ S32x64x64.size a
  shapeCasts_S1576x64x64_S8x197x64x64 : S1576x64x64.ShapeCasts S8x197x64x64
  dot_S196x768_S768x64_S196x64_1_0_0_1_n_n_wf : DotDims.WF S196x768 S768x64 S196x64 [1] [0] [0] [1] [] []
  dot_S64x196_S196x64_S64x64_1_0_0_1_n_n_wf : DotDims.WF S64x196 S196x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x196x768.size a < S1576x196x768.size a
  hwx0_0 : ∀ i : grid0.Coords, EltTy.bits .f32 = 32 ∨ (Rect.unit (s := S1576x196x768) (fun a => cc0_transform_0 i a * S32x196x768.size a) (fun a => (Pipeline.Clip.of (cc0_transform_0 i a) (S32x196x768.size a) (S1576x196x768.size a)).extent (S32x196x768.size a)) fun a => Pipeline.Clip.inb (Pipeline.Clip.ok_of (hstart0_0 i a))).WholeWords (EltTy.packing .f32)
  hwxs0_0 : ∀ i : grid0.Coords, EltTy.bits .f32 = 32 ∨ (Rect.unit (s := S32x196x768) (fun _ => 0) (fun a => (Pipeline.Clip.of (cc0_transform_0 i a) (S32x196x768.size a) (S1576x196x768.size a)).extent (S32x196x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S196x64.size a ≤ S196x64.size a
  hwx0_2 : ∀ i : grid0.Coords, EltTy.bits .f32 = 32 ∨ (Rect.block (s := S196x64) S196x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x64x64.size a < S1576x64x64.size a
  hwx0_3 : ∀ i : grid0.Coords, EltTy.bits .f32 = 32 ∨ (Rect.unit (s := S1576x64x64) (fun a => cc0_transform_3 i a * S32x64x64.size a) (fun a => (Pipeline.Clip.of (cc0_transform_3 i a) (S32x64x64.size a) (S1576x64x64.size a)).extent (S32x64x64.size a)) fun a => Pipeline.Clip.inb (Pipeline.Clip.ok_of (hstart0_3 i a))).WholeWords (EltTy.packing .f32)
  hwxs0_3 : ∀ i : grid0.Coords, EltTy.bits .f32 = 32 ∨ (Rect.unit (s := S32x64x64) (fun _ => 0) (fun a => (Pipeline.Clip.of (cc0_transform_3 i a) (S32x64x64.size a) (S1576x64x64.size a)).extent (S32x64x64.size a)) fun a => (Nat.zero_add _).trans_le (Pipeline.Clip.extent_le (Pipeline.Clip.ok_of (hstart0_3 i a)))).WholeWords (EltTy.packing .f32)

variable [Facts₀]

def dot_S196x768_S768x64_S196x64_1_0_0_1_n_n : DotDims S196x768 S768x64 S196x64 where
  lhsContracting := [1]
  rhsContracting := [0]
  lhsNonContracting := [0]
  rhsNonContracting := [1]
  lhsBatch := []
  rhsBatch := []
  wf := dot_S196x768_S768x64_S196x64_1_0_0_1_n_n_wf
def dot_S64x196_S196x64_S64x64_1_0_0_1_n_n : DotDims S64x196 S196x64 S64x64 where
  lhsContracting := [1]
  rhsContracting := [0]
  lhsNonContracting := [0]
  rhsNonContracting := [1]
  lhsBatch := []
  rhsBatch := []
  wf := dot_S64x196_S196x64_S64x64_1_0_0_1_n_n_wf

abbrev win0_0 : Pipeline.Window sig grid0 :=
  Pipeline.Window.ofSpecClip (Memref.whole main_v0) S32x196x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S196x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S32x64x64.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x197x196x768 : Shape := ⟨4, ![8, 197, 196, 768]⟩
abbrev S64x768 : Shape := ⟨2, ![64, 768]⟩
abbrev S196x64 : Shape := ⟨2, ![196, 64]⟩
abbrev S64x8x197x196 : Shape := ⟨4, ![64, 8, 197, 196]⟩
abbrev S8x197x64x196 : Shape := ⟨4, ![8, 197, 64, 196]⟩
abbrev S8x197x64x64 : Shape := ⟨4, ![8, 197, 64, 64]⟩

abbrev nBuf : Space → Nat
  | .hbm => 6
  | .vmem => 0
  | .smem => 0
  | _ => 0

abbrev bufTy : (tb : Table) → Fin (tcTables nBuf tb) → BufTy
  | .hbm, ⟨0, _⟩ => ⟨S8x197x196x768, .f32⟩
  | .hbm, ⟨1, _⟩ => ⟨S64x768, .f32⟩
  | .hbm, ⟨2, _⟩ => ⟨S196x64, .f32⟩
  | .hbm, ⟨3, _⟩ => ⟨S64x8x197x196, .f32⟩
  | .hbm, ⟨4, _⟩ => ⟨S8x197x64x196, .f32⟩
  | .hbm, ⟨5, _⟩ => ⟨S8x197x64x64, .f32⟩
  | _, _ => ⟨S8x197x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S64x8x197x196_S8x197x64x196_1_2_0_3 : S64x8x197x196.Transposes [1, 2, 0, 3] S8x197x64x196
  dot_S64x768_S8x197x196x768_S64x8x197x196_1_3_0_012_n_n_wf : DotDims.WF S64x768 S8x197x196x768 S64x8x197x196 [1] [3] [0] [0, 1, 2] [] []
  dot_S8x197x64x196_S196x64_S8x197x64x64_3_0_012_1_n_n_wf : DotDims.WF S8x197x64x196 S196x64 S8x197x64x64 [3] [0] [0, 1, 2] [1] [] []

variable [Facts₀]

def dot_S64x768_S8x197x196x768_S64x8x197x196_1_3_0_012_n_n : DotDims S64x768 S8x197x196x768 S64x8x197x196 where
  lhsContracting := [1]
  rhsContracting := [3]
  lhsNonContracting := [0]
  rhsNonContracting := [0, 1, 2]
  lhsBatch := []
  rhsBatch := []
  wf := dot_S64x768_S8x197x196x768_S64x8x197x196_1_3_0_012_n_n_wf
def dot_S8x197x64x196_S196x64_S8x197x64x64_3_0_012_1_n_n : DotDims S8x197x64x196 S196x64 S8x197x64x64 where
  lhsContracting := [3]
  rhsContracting := [0]
  lhsNonContracting := [0, 1, 2]
  rhsNonContracting := [1]
  lhsBatch := []
  rhsBatch := []
  wf := dot_S8x197x64x196_S196x64_S8x197x64x64_3_0_012_1_n_n_wf

class Facts : Prop extends Facts₀ where

variable [Facts]
-- ==== Proof.KernelPieces.lean ====
import proofs.«128411_j31636729102794_1_alg».proof.Proof.Gen.Kernel.Skeleton
import Idealize.ShloMosaic.Lib.Pipeline.FrameBody

noncomputable section

namespace Cert.Kernel.Hand

open Cert.Kernel Cert.Kernel.Gen Idealize.ShloMosaic Idealize.SL.Sem

variable {F : FTy → Type} [FloatOps F]

/-- The whole of the first factor's buffer, and of the second's. -/
abbrev rA : Rect S64x768 := Rect.unit (s := S64x768) ![0, 0] S64x768.size inb_S64x768_S64x768_0_0
abbrev rB : Rect S196x64 := Rect.unit (s := S196x64) ![0, 0] S196x64.size inb_S196x64_S196x64_0_0
/-- Row i of the operand's block, a [1, 196, 768] slab. -/
abbrev rIn0 : Rect S32x196x768 := Rect.unit (s := S32x196x768) ![0, 0, 0] S1x196x768.size inb_S32x196x768_S1x196x768_0_0_0
abbrev rIn1 : Rect S32x196x768 := Rect.unit (s := S32x196x768) ![1, 0, 0] S1x196x768.size inb_S32x196x768_S1x196x768_1_0_0
abbrev rIn2 : Rect S32x196x768 := Rect.unit (s := S32x196x768) ![2, 0, 0] S1x196x768.size inb_S32x196x768_S1x196x768_2_0_0
abbrev rIn3 : Rect S32x196x768 := Rect.unit (s := S32x196x768) ![3, 0, 0] S1x196x768.size inb_S32x196x768_S1x196x768_3_0_0
abbrev rIn4 : Rect S32x196x768 := Rect.unit (s := S32x196x768) ![4, 0, 0] S1x196x768.size inb_S32x196x768_S1x196x768_4_0_0
abbrev rIn5 : Rect S32x196x768 := Rect.unit (s := S32x196x768) ![5, 0, 0] S1x196x768.size inb_S32x196x768_S1x196x768_5_0_0
abbrev rIn6 : Rect S32x196x768 := Rect.unit (s := S32x196x768) ![6, 0, 0] S1x196x768.size inb_S32x196x768_S1x196x768_6_0_0
abbrev rIn7 : Rect S32x196x768 := Rect.unit (s := S32x196x768) ![7, 0, 0] S1x196x768.size inb_S32x196x768_S1x196x768_7_0_0
abbrev rIn8 : Rect S32x196x768 := Rect.unit (s := S32x196x768) ![8, 0, 0] S1x196x768.size inb_S32x196x768_S1x196x768_8_0_0
abbrev rIn9 : Rect S32x196x768 := Rect.unit (s := S32x196x768) ![9, 0, 0] S1x196x768.size inb_S32x196x768_S1x196x768_9_0_0
abbrev rIn10 : Rect S32x196x768 := Rect.unit (s := S32x196x768) ![10, 0, 0] S1x196x768.size inb_S32x196x768_S1x196x768_10_0_0
abbrev rIn11 : Rect S32x196x768 := Rect.unit (s := S32x196x768) ![11, 0, 0] S1x196x768.size inb_S32x196x768_S1x196x768_11_0_0
abbrev rIn12 : Rect S32x196x768 := Rect.unit (s := S32x196x768) ![12, 0, 0] S1x196x768.size inb_S32x196x768_S1x196x768_12_0_0
abbrev rIn13 : Rect S32x196x768 := Rect.unit (s := S32x196x768) ![13, 0, 0] S1x196x768.size inb_S32x196x768_S1x196x768_13_0_0
abbrev rIn14 : Rect S32x196x768 := Rect.unit (s := S32x196x768) ![14, 0, 0] S1x196x768.size inb_S32x196x768_S1x196x768_14_0_0
abbrev rIn15 : Rect S32x196x768 := Rect.unit (s := S32x196x768) ![15, 0, 0] S1x196x768.size inb_S32x196x768_S1x196x768_15_0_0
abbrev rIn16 : Rect S32x196x768 := Rect.unit (s := S32x196x768) ![16, 0, 0] S1x196x768.size inb_S32x196x768_S1x196x768_16_0_0
abbrev rIn17 : Rect S32x196x768 := Rect.unit (s := S32x196x768) ![17, 0, 0] S1x196x768.size inb_S32x196x768_S1x196x768_17_0_0
abbrev rIn18 : Rect S32x196x768 := Rect.unit (s := S32x196x768) ![18, 0, 0] S1x196x768.size inb_S32x196x768_S1x196x768_18_0_0
abbrev rIn19 : Rect S32x196x768 := Rect.unit (s := S32x196x768) ![19, 0, 0] S1x196x768.size inb_S32x196x768_S1x196x768_19_0_0
abbrev rIn20 : Rect S32x196x768 := Rect.unit (s := S32x196x768) ![20, 0, 0] S1x196x768.size inb_S32x196x768_S1x196x768_20_0_0
abbrev rIn21 : Rect S32x196x768 := Rect.unit (s := S32x196x768) ![21, 0, 0] S1x196x768.size inb_S32x196x768_S1x196x768_21_0_0
abbrev rIn22 : Rect S32x196x768 := Rect.unit (s := S32x196x768) ![22, 0, 0] S1x196x768.size inb_S32x196x768_S1x196x768_22_0_0
abbrev rIn23 : Rect S32x196x768 := Rect.unit (s := S32x196x768) ![23, 0, 0] S1x196x768.size inb_S32x196x768_S1x196x768_23_0_0
abbrev rIn24 : Rect S32x196x768 := Rect.unit (s := S32x196x768) ![24, 0, 0] S1x196x768.size inb_S32x196x768_S1x196x768_24_0_0
abbrev rIn25 : Rect S32x196x768 := Rect.unit (s := S32x196x768) ![25, 0, 0] S1x196x768.size inb_S32x196x768_S1x196x768_25_0_0
abbrev rIn26 : Rect S32x196x768 := Rect.unit (s := S32x196x768) ![26, 0, 0] S1x196x768.size inb_S32x196x768_S1x196x768_26_0_0
abbrev rIn27 : Rect S32x196x768 := Rect.unit (s := S32x196x768) ![27, 0, 0] S1x196x768.size inb_S32x196x768_S1x196x768_27_0_0
abbrev rIn28 : Rect S32x196x768 := Rect.unit (s := S32x196x768) ![28, 0, 0] S1x196x768.size inb_S32x196x768_S1x196x768_28_0_0
abbrev rIn29 : Rect S32x196x768 := Rect.unit (s := S32x196x768) ![29, 0, 0] S1x196x768.size inb_S32x196x768_S1x196x768_29_0_0
abbrev rIn30 : Rect S32x196x768 := Rect.unit (s := S32x196x768) ![30, 0, 0] S1x196x768.size inb_S32x196x768_S1x196x768_30_0_0
abbrev rIn31 : Rect S32x196x768 := Rect.unit (s := S32x196x768) ![31, 0, 0] S1x196x768.size inb_S32x196x768_S1x196x768_31_0_0
/-- Row i of the result's block, a [1, 64, 64] slab. -/
abbrev rOut0 : Rect S32x64x64 := Rect.unit (s := S32x64x64) ![0, 0, 0] S1x64x64.size inb_S32x64x64_S1x64x64_0_0_0
abbrev rOut1 : Rect S32x64x64 := Rect.unit (s := S32x64x64) ![1, 0, 0] S1x64x64.size inb_S32x64x64_S1x64x64_1_0_0
abbrev rOut2 : Rect S32x64x64 := Rect.unit (s := S32x64x64) ![2, 0, 0] S1x64x64.size inb_S32x64x64_S1x64x64_2_0_0
abbrev rOut3 : Rect S32x64x64 := Rect.unit (s := S32x64x64) ![3, 0, 0] S1x64x64.size inb_S32x64x64_S1x64x64_3_0_0
abbrev rOut4 : Rect S32x64x64 := Rect.unit (s := S32x64x64) ![4, 0, 0] S1x64x64.size inb_S32x64x64_S1x64x64_4_0_0
abbrev rOut5 : Rect S32x64x64 := Rect.unit (s := S32x64x64) ![5, 0, 0] S1x64x64.size inb_S32x64x64_S1x64x64_5_0_0
abbrev rOut6 : Rect S32x64x64 := Rect.unit (s := S32x64x64) ![6, 0, 0] S1x64x64.size inb_S32x64x64_S1x64x64_6_0_0
abbrev rOut7 : Rect S32x64x64 := Rect.unit (s := S32x64x64) ![7, 0, 0] S1x64x64.size inb_S32x64x64_S1x64x64_7_0_0
abbrev rOut8 : Rect S32x64x64 := Rect.unit (s := S32x64x64) ![8, 0, 0] S1x64x64.size inb_S32x64x64_S1x64x64_8_0_0
abbrev rOut9 : Rect S32x64x64 := Rect.unit (s := S32x64x64) ![9, 0, 0] S1x64x64.size inb_S32x64x64_S1x64x64_9_0_0
abbrev rOut10 : Rect S32x64x64 := Rect.unit (s := S32x64x64) ![10, 0, 0] S1x64x64.size inb_S32x64x64_S1x64x64_10_0_0
abbrev rOut11 : Rect S32x64x64 := Rect.unit (s := S32x64x64) ![11, 0, 0] S1x64x64.size inb_S32x64x64_S1x64x64_11_0_0
abbrev rOut12 : Rect S32x64x64 := Rect.unit (s := S32x64x64) ![12, 0, 0] S1x64x64.size inb_S32x64x64_S1x64x64_12_0_0
abbrev rOut13 : Rect S32x64x64 := Rect.unit (s := S32x64x64) ![13, 0, 0] S1x64x64.size inb_S32x64x64_S1x64x64_13_0_0
abbrev rOut14 : Rect S32x64x64 := Rect.unit (s := S32x64x64) ![14, 0, 0] S1x64x64.size inb_S32x64x64_S1x64x64_14_0_0
abbrev rOut15 : Rect S32x64x64 := Rect.unit (s := S32x64x64) ![15, 0, 0] S1x64x64.size inb_S32x64x64_S1x64x64_15_0_0
abbrev rOut16 : Rect S32x64x64 := Rect.unit (s := S32x64x64) ![16, 0, 0] S1x64x64.size inb_S32x64x64_S1x64x64_16_0_0
abbrev rOut17 : Rect S32x64x64 := Rect.unit (s := S32x64x64) ![17, 0, 0] S1x64x64.size inb_S32x64x64_S1x64x64_17_0_0
abbrev rOut18 : Rect S32x64x64 := Rect.unit (s := S32x64x64) ![18, 0, 0] S1x64x64.size inb_S32x64x64_S1x64x64_18_0_0
abbrev rOut19 : Rect S32x64x64 := Rect.unit (s := S32x64x64) ![19, 0, 0] S1x64x64.size inb_S32x64x64_S1x64x64_19_0_0
abbrev rOut20 : Rect S32x64x64 := Rect.unit (s := S32x64x64) ![20, 0, 0] S1x64x64.size inb_S32x64x64_S1x64x64_20_0_0
abbrev rOut21 : Rect S32x64x64 := Rect.unit (s := S32x64x64) ![21, 0, 0] S1x64x64.size inb_S32x64x64_S1x64x64_21_0_0
abbrev rOut22 : Rect S32x64x64 := Rect.unit (s := S32x64x64) ![22, 0, 0] S1x64x64.size inb_S32x64x64_S1x64x64_22_0_0
abbrev rOut23 : Rect S32x64x64 := Rect.unit (s := S32x64x64) ![23, 0, 0] S1x64x64.size inb_S32x64x64_S1x64x64_23_0_0
abbrev rOut24 : Rect S32x64x64 := Rect.unit (s := S32x64x64) ![24, 0, 0] S1x64x64.size inb_S32x64x64_S1x64x64_24_0_0
abbrev rOut25 : Rect S32x64x64 := Rect.unit (s := S32x64x64) ![25, 0, 0] S1x64x64.size inb_S32x64x64_S1x64x64_25_0_0
abbrev rOut26 : Rect S32x64x64 := Rect.unit (s := S32x64x64) ![26, 0, 0] S1x64x64.size inb_S32x64x64_S1x64x64_26_0_0
abbrev rOut27 : Rect S32x64x64 := Rect.unit (s := S32x64x64) ![27, 0, 0] S1x64x64.size inb_S32x64x64_S1x64x64_27_0_0
abbrev rOut28 : Rect S32x64x64 := Rect.unit (s := S32x64x64) ![28, 0, 0] S1x64x64.size inb_S32x64x64_S1x64x64_28_0_0
abbrev rOut29 : Rect S32x64x64 := Rect.unit (s := S32x64x64) ![29, 0, 0] S1x64x64.size inb_S32x64x64_S1x64x64_29_0_0
abbrev rOut30 : Rect S32x64x64 := Rect.unit (s := S32x64x64) ![30, 0, 0] S1x64x64.size inb_S32x64x64_S1x64x64_30_0_0
abbrev rOut31 : Rect S32x64x64 := Rect.unit (s := S32x64x64) ![31, 0, 0] S1x64x64.size inb_S32x64x64_S1x64x64_31_0_0

/-- The body's 32 stores, last first: row i of the result's buffer takes the body's arithmetic of the two factors and row i of the operand's buffer. -/
def outPieces (x0 : Vec F S32x196x768 .f32) (x1 : Vec F S64x768 .f32) (x2 : Vec F S196x64 .f32) : List (View.Piece (Elt F) S32x64x64 .f32) :=
  [
    ⟨rOut31, k0_pay44 (k0_pay1 (View.ld x1 rA)) (k0_pay2 (View.ld x2 rB)) (View.ld x0 rIn31)⟩,
    ⟨rOut30, k0_pay43 (k0_pay1 (View.ld x1 rA)) (k0_pay2 (View.ld x2 rB)) (View.ld x0 rIn30)⟩,
    ⟨rOut29, k0_pay42 (k0_pay2 (View.ld x2 rB)) (k0_pay41 (k0_pay1 (View.ld x1 rA)) (View.ld x0 rIn29))⟩,
    ⟨rOut28, k0_pay40 (k0_pay1 (View.ld x1 rA)) (k0_pay2 (View.ld x2 rB)) (View.ld x0 rIn28)⟩,
    ⟨rOut27, k0_pay39 (k0_pay1 (View.ld x1 rA)) (k0_pay2 (View.ld x2 rB)) (View.ld x0 rIn27)⟩,
    ⟨rOut26, k0_pay38 (k0_pay2 (View.ld x2 rB)) (k0_pay37 (k0_pay1 (View.ld x1 rA)) (View.ld x0 rIn26))⟩,
    ⟨rOut25, k0_pay36 (k0_pay1 (View.ld x1 rA)) (k0_pay2 (View.ld x2 rB)) (View.ld x0 rIn25)⟩,
    ⟨rOut24, k0_pay35 (k0_pay1 (View.ld x1 rA)) (k0_pay2 (View.ld x2 rB)) (View.ld x0 rIn24)⟩,
    ⟨rOut23, k0_pay34 (k0_pay2 (View.ld x2 rB)) (k0_pay33 (k0_pay1 (View.ld x1 rA)) (View.ld x0 rIn23))⟩,
    ⟨rOut22, k0_pay32 (k0_pay1 (View.ld x1 rA)) (k0_pay2 (View.ld x2 rB)) (View.ld x0 rIn22)⟩,
    ⟨rOut21, k0_pay31 (k0_pay1 (View.ld x1 rA)) (k0_pay2 (View.ld x2 rB)) (View.ld x0 rIn21)⟩,
    ⟨rOut20, k0_pay30 (k0_pay2 (View.ld x2 rB)) (k0_pay29 (k0_pay1 (View.ld x1 rA)) (View.ld x0 rIn20))⟩,
    ⟨rOut19, k0_pay28 (k0_pay1 (View.ld x1 rA)) (k0_pay2 (View.ld x2 rB)) (View.ld x0 rIn19)⟩,
    ⟨rOut18, k0_pay27 (k0_pay1 (View.ld x1 rA)) (k0_pay2 (View.ld x2 rB)) (View.ld x0 rIn18)⟩,
    ⟨rOut17, k0_pay26 (k0_pay2 (View.ld x2 rB)) (k0_pay25 (k0_pay1 (View.ld x1 rA)) (View.ld x0 rIn17))⟩,
    ⟨rOut16, k0_pay24 (k0_pay1 (View.ld x1 rA)) (k0_pay2 (View.ld x2 rB)) (View.ld x0 rIn16)⟩,
    ⟨rOut15, k0_pay23 (k0_pay1 (View.ld x1 rA)) (k0_pay2 (View.ld x2 rB)) (View.ld x0 rIn15)⟩,
    ⟨rOut14, k0_pay22 (k0_pay2 (View.ld x2 rB)) (k0_pay21 (k0_pay1 (View.ld x1 rA)) (View.ld x0 rIn14))⟩,
    ⟨rOut13, k0_pay20 (k0_pay1 (View.ld x1 rA)) (k0_pay2 (View.ld x2 rB)) (View.ld x0 rIn13)⟩,
    ⟨rOut12, k0_pay19 (k0_pay1 (View.ld x1 rA)) (k0_pay2 (View.ld x2 rB)) (View.ld x0 rIn12)⟩,
    ⟨rOut11, k0_pay18 (k0_pay2 (View.ld x2 rB)) (k0_pay17 (k0_pay1 (View.ld x1 rA)) (View.ld x0 rIn11))⟩,
    ⟨rOut10, k0_pay16 (k0_pay1 (View.ld x1 rA)) (k0_pay2 (View.ld x2 rB)) (View.ld x0 rIn10)⟩,
    ⟨rOut9, k0_pay15 (k0_pay1 (View.ld x1 rA)) (k0_pay2 (View.ld x2 rB)) (View.ld x0 rIn9)⟩,
    ⟨rOut8, k0_pay14 (k0_pay2 (View.ld x2 rB)) (k0_pay13 (k0_pay1 (View.ld x1 rA)) (View.ld x0 rIn8))⟩,
    ⟨rOut7, k0_pay12 (k0_pay1 (View.ld x1 rA)) (k0_pay2 (View.ld x2 rB)) (View.ld x0 rIn7)⟩,
    ⟨rOut6, k0_pay11 (k0_pay1 (View.ld x1 rA)) (k0_pay2 (View.ld x2 rB)) (View.ld x0 rIn6)⟩,
    ⟨rOut5, k0_pay10 (k0_pay2 (View.ld x2 rB)) (k0_pay9 (k0_pay1 (View.ld x1 rA)) (View.ld x0 rIn5))⟩,
    ⟨rOut4, k0_pay8 (k0_pay1 (View.ld x1 rA)) (k0_pay2 (View.ld x2 rB)) (View.ld x0 rIn4)⟩,
    ⟨rOut3, k0_pay7 (k0_pay1 (View.ld x1 rA)) (k0_pay2 (View.ld x2 rB)) (View.ld x0 rIn3)⟩,
    ⟨rOut2, k0_pay6 (k0_pay2 (View.ld x2 rB)) (k0_pay5 (View.ld x1 rA) (View.ld x0 rIn2))⟩,
    ⟨rOut1, k0_pay4 (View.ld x1 rA) (View.ld x2 rB) (View.ld x0 rIn1)⟩,
    ⟨rOut0, k0_pay3 (View.ld x1 rA) (View.ld x2 rB) (View.ld x0 rIn0)⟩ ]

end Cert.Kernel.Hand

end
-- ==== Proof.KernelRows.lean ====
/-
  The kernel body, run once on its four staging buffers.

  The body is thirty-two copies of one computation, one per row i of its block: it loads the [1, 196, 768] slab
  x_i of the operand's buffer, forms  t = x_i · Aᵀ  (196×64) and then  tᵀ · B  (64×64) on the matrix unit, and stores
  that as the [1, 64, 64] slab i of the result's buffer; the two factors A and B are loaded whole, once. So the
  result's buffer ends, row by row, as ONE function of the two factors and of the SAME row of the operand's buffer
  (`rowsOut`), whatever it held before; the other three buffers are left as found. In particular rows of the
  result past a given row count depend only on rows of the operand past it: what the body makes of the part of
  the operand's buffer that a cut fetch did not fill stays in the part of the result's buffer that a cut
  write-back does not move (`cut_rowsOut`).
-/
import proofs.«128411_j31636729102794_1_alg».proof.Proof.KernelPieces
import proofs.«128411_j31636729102794_1_alg».proof.Proof.Gen.Kernel.Frame
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the stores leave -/

/-- The result's buffer after the body: its thirty-two stores laid over one another. -/
def out0_3 (x0 : Vec F S32x196x768 .f32) (x1 : Vec F S64x768 .f32) (x2 : Vec F S196x64 .f32) : Vec F S32x64x64 .f32 :=
  View.canon (outPieces x0 x1 x2)

/-- The thirty-two row slabs tile the buffer. -/
theorem cover0_3 (x0 : Vec F S32x196x768 .f32) (x1 : Vec F S64x768 .f32) (x2 : Vec F S196x64 .f32) (y : S32x64x64.Idx) :
    ∃ pc ∈ outPieces x0 x1 x2, y ∈ pc.1.set :=
  View.cover_of_tiled (outPieces x0 x1 x2) S1x64x64.size (by rfl) y

/-! ## The body's triple -/

set_option maxHeartbeats 4000000 in
/-- The body on whole staging memrefs — the operand's and the two factors' at read contents `x0`, `x1`, `x2`, the
    result's at anything — runs to the continuation holding the first three as they were and the result's at
    `out0_3` of them. -/
theorem sound_kernel (c : Dev nD) (E : Set ℕ) (i : grid0.Coords) (arg1 : Memref sig .tc .vmem S32x196x768 .f32) (harg1 : arg1.IsWhole) (arg2 : Memref sig .tc .vmem S64x768 .f32) (harg2 : arg2.IsWhole) (arg3 : Memref sig .tc .vmem S196x64 .f32) (harg3 : arg3.IsWhole) (arg4 : Memref sig .tc .vmem S32x64x64 .f32) (harg4 : arg4.IsWhole)
    (x0 : Vec F S32x196x768 .f32) (x1 : Vec F S64x768 .f32) (x2 : Vec F S196x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

/-! ## The result's buffer, row by row -/

/-- Row `r` of a [32, 196, 768] buffer, as a [1, 196, 768] slab. -/
def rowOf (X : Vec F S32x196x768 .f32) (r : Fin 32) : Vec F S1x196x768 .f32 := fun z => X (ix3 r (z 1) (z 2))

/-- The result's buffer as one function of the other three: entry (r, a, h) is the body's arithmetic of the two
    factors and row `r` of the operand's buffer, at (0, a, h). -/
def rowsOut (X0 : Vec F S32x196x768 .f32) (X1 : Vec F S64x768 .f32) (X2 : Vec F S196x64 .f32) : Vec F S32x64x64 .f32 :=
  fun y => k0_pay3 (View.ld X1 rA) (View.ld X2 rB) (rowOf X0 (y 0)) (ix3 0 (y 1) (y 2))

/-- The store through row `r`'s slab of the arithmetic of row `r`'s slab of the operand is `rowsOut` there. -/
theorem piece_row (r : Nat) (inbI : ∀ a, (![r, 0, 0] : Fin 3 → Nat) a + S1x196x768.size a ≤ S32x196x768.size a)
    (inbO : ∀ a, (![r, 0, 0] : Fin 3 → Nat) a + S1x64x64.size a ≤ S32x64x64.size a)
    (x0 : Vec F S32x196x768 .f32) (x1 : Vec F S64x768 .f32) (x2 : Vec F S196x64 .f32) (x : S1x64x64.Idx) :
    k0_pay3 (View.ld x1 rA) (View.ld x2 rB) (View.ld x0 (Rect.unit (s := S32x196x768) ![r, 0, 0] S1x196x768.size inbI)) x
      = rowsOut x0 x1 x2 ((Rect.unit (s := S32x64x64) ![r, 0, 0] S1x64x64.size inbO).emb x) := by
  unfold rowsOut
  have hx0 : (x 0).val = 0 := by have := (x 0).isLt; simp at this; omega
  have e1 : View.ld x0 (Rect.unit (s := S32x196x768) ![r, 0, 0] S1x196x768.size inbI)
      = rowOf x0 ((Rect.unit (s := S32x64x64) ![r, 0, 0] S1x64x64.size inbO).emb x 0) := by
    funext z
    have hz0 : (z 0).val = 0 := by have := (z 0).isLt; simp at this; omega
    show x0 _ = x0 _
    refine congrArg x0 (funext fun a => Fin.ext ?_)
    match a with
    | ⟨0, _⟩ => show r + 1 * (z 0).val = r + 1 * (x 0).val; rw [hz0, hx0]
    | ⟨1, _⟩ => show 0 + 1 * (z 1).val = (z 1).val; omega
    | ⟨2, _⟩ => show 0 + 1 * (z 2).val = (z 2).val; omega
  have e2 : x = ix3 0 ((Rect.unit (s := S32x64x64) ![r, 0, 0] S1x64x64.size inbO).emb x 1)
      ((Rect.unit (s := S32x64x64) ![r, 0, 0] S1x64x64.size inbO).emb x 2) := by
    funext a; refine Fin.ext ?_
    match a with
    | ⟨0, _⟩ => exact hx0
    | ⟨1, _⟩ => show (x 1).val = 0 + 1 * (x 1).val; omega
    | ⟨2, _⟩ => show (x 2).val = 0 + 1 * (x 2).val; omega
  rw [← e1]
  exact congrArg (k0_pay3 (View.ld x1 rA) (View.ld x2 rB) (View.ld x0 (Rect.unit (s := S32x196x768) ![r, 0, 0] S1x196x768.size inbI))) e2

/-- Every store's payload is `rowsOut` through its rectangle. -/
theorem pieces_rows (x0 : Vec F S32x196x768 .f32) (x1 : Vec F S64x768 .f32) (x2 : Vec F S196x64 .f32) :
    ∀ p ∈ outPieces x0 x1 x2, ∀ x : p.1.shape.Idx, p.2 x = rowsOut x0 x1 x2 (p.1.emb x) := by
  intro p hp
  simp only [outPieces, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact fun x => piece_row _ (by decide) (by decide) x0 x1 x2 x

/-- So the stores leave `rowsOut`. -/
theorem out0_3_eq (x0 : Vec F S32x196x768 .f32) (x1 : Vec F S64x768 .f32) (x2 : Vec F S196x64 .f32) :
    out0_3 x0 x1 x2 = rowsOut x0 x1 x2 :=
  funext fun y => View.canon_apply_of_pieces (rowsOut x0 x1 x2) (outPieces x0 x1 x2) (pieces_rows x0 x1 x2) y (cover0_3 x0 x1 x2 y)

/-! ## Rows that a cut write-back moves come from rows that the cut fetch filled -/

/-- The operand's and the result's windows are cut alike on the row axis and not at all on the other two, so the
    rows of the result's buffer that a write-back at point `t` moves are computed from rows of the operand's buffer that
    the fetch at `t` filled: what the rest of the operand's buffer holds (`d`, `d'`) does not reach them. -/
theorem cut_rowsOut (t : Fin cfg0.N) (d d' : S32x196x768.Idx → Elt F .f32)
    (g : (win0_0.xblock (grid0.coords t)).Idx → Elt F .f32) (X1 : Vec F S64x768 .f32) (X2 : Vec F S196x64 .f32) :
    win0_3.cut (grid0.coords t) (rowsOut (win0_0.fill (grid0.coords t) d g) X1 X2)
      = win0_3.cut (grid0.coords t) (rowsOut (win0_0.fill (grid0.coords t) d' g) X1 X2) := by
  funext j
  show rowsOut _ X1 X2 (win0_3.xinj (grid0.coords t) j) = rowsOut _ X1 X2 (win0_3.xinj (grid0.coords t) j)
  unfold rowsOut
  have e : rowOf (win0_0.fill (grid0.coords t) d g) (win0_3.xinj (grid0.coords t) j 0)
      = rowOf (win0_0.fill (grid0.coords t) d' g) (win0_3.xinj (grid0.coords t) j 0) := by
    funext z
    unfold rowOf
    have hm : win0_0.moved (grid0.coords t) (ix3 (win0_3.xinj (grid0.coords t) j 0) (z 1) (z 2)) = true :=
      (win0_0.moved_iff _ _).mpr fun a => by
        match a with
        | ⟨0, _⟩ => exact (j 0).isLt
        | ⟨1, _⟩ => exact (z 1).isLt
        | ⟨2, _⟩ => exact (z 2).isLt
    unfold Window.fill
    rw [dif_pos hm, dif_pos hm]
  rw [e]

end Cert.Kernel.Hand

end
-- ==== Proof.KernelFrame.lean ====
/-
  The frame of the program: its one region, a grid of fifty points over the 1576 rows in blocks of thirty-two.

  1576 = 49·32 + 8, so the last block of the operand and of the result overhangs its array by twenty-four rows: the
  fetch there fills the first eight rows of the staging buffer and leaves the rest at words nothing names, and the
  write-back moves the first eight rows of the result's buffer and nothing else. The body treats every row of its
  block alike and by itself (Rows), so at every point the result's buffer is, on the rows the write-back moves, one
  function of the two factors and of the operand's rows there — which is all the pipeline's body obligation asks of a
  window whose blocks may be cut. The proof data: each array as the region finds it; after the body the operand's
  buffer at its block (filled out past the array's end with the zero word, which nothing reads), the factors' at
  theirs, the result's at `rowsOut` of those.
-/
import proofs.«128411_j31636729102794_1_alg».proof.Proof.KernelRows

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The operand's block at point `t` — its rows inside the array — filled out to a whole buffer with the zero word. -/
def xfill (c : Dev nD) (t : Fin cfg0.N) : Vec F S32x196x768 .f32 :=
  win0_0.fill (grid0.coords t) (fun _ => Scalar.ofBits .f32 0#32) (iblk m c 0 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => rowsOut (xfill m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = rowsOut (xfill m c t) (iblk m c 1 t) (iblk m c 2 t) := by dsimp only [dats]

/-- The operand's buffer is fetched at every point: the body finds its block on the rows the fetch filled and `d`,
    anything, on the others. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]
/-- The factors' buffers hold the factors at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the operand's and the result's buffers stated on the part their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- the operand's buffer is as found: its block on the filled rows, `d0` on the others
  have h0 : win0_0.fill (grid0.coords t) d0 (win0_0.cut (grid0.coords t) (xfill m c t))
      = win0_0.fill (grid0.coords t) d0 (iblk m c 0 t) := by
    unfold xfill; rw [win0_0.cut_fill]
  -- the result's buffer on the rows the write-back moves does not see `d0`
  have h3 : win0_3.fill (grid0.coords t) (out0_3 (win0_0.fill (grid0.coords t) d0 (iblk m c 0 t)) (iblk m c 1 t) (iblk m c 2 t))
        (win0_3.cut (grid0.coords t) (rowsOut (xfill m c t) (iblk m c 1 t) (iblk m c 2 t)))
      = out0_3 (win0_0.fill (grid0.coords t) d0 (iblk m c 0 t)) (iblk m c 1 t) (iblk m c 2 t) := by
    rw [out0_3_eq]
    unfold xfill
    rw [cut_rowsOut t _ d0 (iblk m c 0 t) (iblk m c 1 t) (iblk m c 2 t), win0_3.fill_cut]
  isplitl [H0]
  · iexists d0
    change _ ⊢ owns (c : Thread nD τ) (st0_0 t) fullShare (win0_0.fill (grid0.coords t) d0 (win0_0.cut (grid0.coords t) (xfill m c t)))
    rw [h0]
  isplitl [H1]; · iexact H1
  isplitl [H2]; · iexact H2
  iexists (out0_3 (win0_0.fill (grid0.coords t) d0 (iblk m c 0 t)) (iblk m c 1 t) (iblk m c 2 t))
  change _ ⊢ owns (c : Thread nD τ) (st0_3 t) fullShare (win0_3.fill (grid0.coords t) (out0_3 (win0_0.fill (grid0.coords t) d0 (iblk m c 0 t)) (iblk m c 1 t) (iblk m c 2 t))
    (win0_3.cut (grid0.coords t) (rowsOut (xfill m c t) (iblk m c 1 t) (iblk m c 2 t))))
  rw [h3]

/-- The pipeline's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the pipeline at
    what the proof data computes and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdealPieces.lean ====
import proofs.«128411_j31636729102794_1_alg».proof.Proof.Gen.KernelIdeal.Skeleton
import Idealize.ShloMosaic.Lib.Pipeline.FrameBody

noncomputable section

namespace Cert.KernelIdeal.Hand

open Cert.KernelIdeal Cert.KernelIdeal.Gen Idealize.ShloMosaic Idealize.SL.Sem

variable {F : FTy → Type} [FloatOps F]

/-- The whole of the first factor's buffer, and of the second's. -/
abbrev rA : Rect S64x768 := Rect.unit (s := S64x768) ![0, 0] S64x768.size inb_S64x768_S64x768_0_0
abbrev rB : Rect S196x64 := Rect.unit (s := S196x64) ![0, 0] S196x64.size inb_S196x64_S196x64_0_0
/-- Row i of the operand's block, a [1, 196, 768] slab. -/
abbrev rIn0 : Rect S32x196x768 := Rect.unit (s := S32x196x768) ![0, 0, 0] S1x196x768.size inb_S32x196x768_S1x196x768_0_0_0
abbrev rIn1 : Rect S32x196x768 := Rect.unit (s := S32x196x768) ![1, 0, 0] S1x196x768.size inb_S32x196x768_S1x196x768_1_0_0
abbrev rIn2 : Rect S32x196x768 := Rect.unit (s := S32x196x768) ![2, 0, 0] S1x196x768.size inb_S32x196x768_S1x196x768_2_0_0
abbrev rIn3 : Rect S32x196x768 := Rect.unit (s := S32x196x768) ![3, 0, 0] S1x196x768.size inb_S32x196x768_S1x196x768_3_0_0
abbrev rIn4 : Rect S32x196x768 := Rect.unit (s := S32x196x768) ![4, 0, 0] S1x196x768.size inb_S32x196x768_S1x196x768_4_0_0
abbrev rIn5 : Rect S32x196x768 := Rect.unit (s := S32x196x768) ![5, 0, 0] S1x196x768.size inb_S32x196x768_S1x196x768_5_0_0
abbrev rIn6 : Rect S32x196x768 := Rect.unit (s := S32x196x768) ![6, 0, 0] S1x196x768.size inb_S32x196x768_S1x196x768_6_0_0
abbrev rIn7 : Rect S32x196x768 := Rect.unit (s := S32x196x768) ![7, 0, 0] S1x196x768.size inb_S32x196x768_S1x196x768_7_0_0
abbrev rIn8 : Rect S32x196x768 := Rect.unit (s := S32x196x768) ![8, 0, 0] S1x196x768.size inb_S32x196x768_S1x196x768_8_0_0
abbrev rIn9 : Rect S32x196x768 := Rect.unit (s := S32x196x768) ![9, 0, 0] S1x196x768.size inb_S32x196x768_S1x196x768_9_0_0
abbrev rIn10 : Rect S32x196x768 := Rect.unit (s := S32x196x768) ![10, 0, 0] S1x196x768.size inb_S32x196x768_S1x196x768_10_0_0
abbrev rIn11 : Rect S32x196x768 := Rect.unit (s := S32x196x768) ![11, 0, 0] S1x196x768.size inb_S32x196x768_S1x196x768_11_0_0
abbrev rIn12 : Rect S32x196x768 := Rect.unit (s := S32x196x768) ![12, 0, 0] S1x196x768.size inb_S32x196x768_S1x196x768_12_0_0
abbrev rIn13 : Rect S32x196x768 := Rect.unit (s := S32x196x768) ![13, 0, 0] S1x196x768.size inb_S32x196x768_S1x196x768_13_0_0
abbrev rIn14 : Rect S32x196x768 := Rect.unit (s := S32x196x768) ![14, 0, 0] S1x196x768.size inb_S32x196x768_S1x196x768_14_0_0
abbrev rIn15 : Rect S32x196x768 := Rect.unit (s := S32x196x768) ![15, 0, 0] S1x196x768.size inb_S32x196x768_S1x196x768_15_0_0
abbrev rIn16 : Rect S32x196x768 := Rect.unit (s := S32x196x768) ![16, 0, 0] S1x196x768.size inb_S32x196x768_S1x196x768_16_0_0
abbrev rIn17 : Rect S32x196x768 := Rect.unit (s := S32x196x768) ![17, 0, 0] S1x196x768.size inb_S32x196x768_S1x196x768_17_0_0
abbrev rIn18 : Rect S32x196x768 := Rect.unit (s := S32x196x768) ![18, 0, 0] S1x196x768.size inb_S32x196x768_S1x196x768_18_0_0
abbrev rIn19 : Rect S32x196x768 := Rect.unit (s := S32x196x768) ![19, 0, 0] S1x196x768.size inb_S32x196x768_S1x196x768_19_0_0
abbrev rIn20 : Rect S32x196x768 := Rect.unit (s := S32x196x768) ![20, 0, 0] S1x196x768.size inb_S32x196x768_S1x196x768_20_0_0
abbrev rIn21 : Rect S32x196x768 := Rect.unit (s := S32x196x768) ![21, 0, 0] S1x196x768.size inb_S32x196x768_S1x196x768_21_0_0
abbrev rIn22 : Rect S32x196x768 := Rect.unit (s := S32x196x768) ![22, 0, 0] S1x196x768.size inb_S32x196x768_S1x196x768_22_0_0
abbrev rIn23 : Rect S32x196x768 := Rect.unit (s := S32x196x768) ![23, 0, 0] S1x196x768.size inb_S32x196x768_S1x196x768_23_0_0
abbrev rIn24 : Rect S32x196x768 := Rect.unit (s := S32x196x768) ![24, 0, 0] S1x196x768.size inb_S32x196x768_S1x196x768_24_0_0
abbrev rIn25 : Rect S32x196x768 := Rect.unit (s := S32x196x768) ![25, 0, 0] S1x196x768.size inb_S32x196x768_S1x196x768_25_0_0
abbrev rIn26 : Rect S32x196x768 := Rect.unit (s := S32x196x768) ![26, 0, 0] S1x196x768.size inb_S32x196x768_S1x196x768_26_0_0
abbrev rIn27 : Rect S32x196x768 := Rect.unit (s := S32x196x768) ![27, 0, 0] S1x196x768.size inb_S32x196x768_S1x196x768_27_0_0
abbrev rIn28 : Rect S32x196x768 := Rect.unit (s := S32x196x768) ![28, 0, 0] S1x196x768.size inb_S32x196x768_S1x196x768_28_0_0
abbrev rIn29 : Rect S32x196x768 := Rect.unit (s := S32x196x768) ![29, 0, 0] S1x196x768.size inb_S32x196x768_S1x196x768_29_0_0
abbrev rIn30 : Rect S32x196x768 := Rect.unit (s := S32x196x768) ![30, 0, 0] S1x196x768.size inb_S32x196x768_S1x196x768_30_0_0
abbrev rIn31 : Rect S32x196x768 := Rect.unit (s := S32x196x768) ![31, 0, 0] S1x196x768.size inb_S32x196x768_S1x196x768_31_0_0
/-- Row i of the result's block, a [1, 64, 64] slab. -/
abbrev rOut0 : Rect S32x64x64 := Rect.unit (s := S32x64x64) ![0, 0, 0] S1x64x64.size inb_S32x64x64_S1x64x64_0_0_0
abbrev rOut1 : Rect S32x64x64 := Rect.unit (s := S32x64x64) ![1, 0, 0] S1x64x64.size inb_S32x64x64_S1x64x64_1_0_0
abbrev rOut2 : Rect S32x64x64 := Rect.unit (s := S32x64x64) ![2, 0, 0] S1x64x64.size inb_S32x64x64_S1x64x64_2_0_0
abbrev rOut3 : Rect S32x64x64 := Rect.unit (s := S32x64x64) ![3, 0, 0] S1x64x64.size inb_S32x64x64_S1x64x64_3_0_0
abbrev rOut4 : Rect S32x64x64 := Rect.unit (s := S32x64x64) ![4, 0, 0] S1x64x64.size inb_S32x64x64_S1x64x64_4_0_0
abbrev rOut5 : Rect S32x64x64 := Rect.unit (s := S32x64x64) ![5, 0, 0] S1x64x64.size inb_S32x64x64_S1x64x64_5_0_0
abbrev rOut6 : Rect S32x64x64 := Rect.unit (s := S32x64x64) ![6, 0, 0] S1x64x64.size inb_S32x64x64_S1x64x64_6_0_0
abbrev rOut7 : Rect S32x64x64 := Rect.unit (s := S32x64x64) ![7, 0, 0] S1x64x64.size inb_S32x64x64_S1x64x64_7_0_0
abbrev rOut8 : Rect S32x64x64 := Rect.unit (s := S32x64x64) ![8, 0, 0] S1x64x64.size inb_S32x64x64_S1x64x64_8_0_0
abbrev rOut9 : Rect S32x64x64 := Rect.unit (s := S32x64x64) ![9, 0, 0] S1x64x64.size inb_S32x64x64_S1x64x64_9_0_0
abbrev rOut10 : Rect S32x64x64 := Rect.unit (s := S32x64x64) ![10, 0, 0] S1x64x64.size inb_S32x64x64_S1x64x64_10_0_0
abbrev rOut11 : Rect S32x64x64 := Rect.unit (s := S32x64x64) ![11, 0, 0] S1x64x64.size inb_S32x64x64_S1x64x64_11_0_0
abbrev rOut12 : Rect S32x64x64 := Rect.unit (s := S32x64x64) ![12, 0, 0] S1x64x64.size inb_S32x64x64_S1x64x64_12_0_0
abbrev rOut13 : Rect S32x64x64 := Rect.unit (s := S32x64x64) ![13, 0, 0] S1x64x64.size inb_S32x64x64_S1x64x64_13_0_0
abbrev rOut14 : Rect S32x64x64 := Rect.unit (s := S32x64x64) ![14, 0, 0] S1x64x64.size inb_S32x64x64_S1x64x64_14_0_0
abbrev rOut15 : Rect S32x64x64 := Rect.unit (s := S32x64x64) ![15, 0, 0] S1x64x64.size inb_S32x64x64_S1x64x64_15_0_0
abbrev rOut16 : Rect S32x64x64 := Rect.unit (s := S32x64x64) ![16, 0, 0] S1x64x64.size inb_S32x64x64_S1x64x64_16_0_0
abbrev rOut17 : Rect S32x64x64 := Rect.unit (s := S32x64x64) ![17, 0, 0] S1x64x64.size inb_S32x64x64_S1x64x64_17_0_0
abbrev rOut18 : Rect S32x64x64 := Rect.unit (s := S32x64x64) ![18, 0, 0] S1x64x64.size inb_S32x64x64_S1x64x64_18_0_0
abbrev rOut19 : Rect S32x64x64 := Rect.unit (s := S32x64x64) ![19, 0, 0] S1x64x64.size inb_S32x64x64_S1x64x64_19_0_0
abbrev rOut20 : Rect S32x64x64 := Rect.unit (s := S32x64x64) ![20, 0, 0] S1x64x64.size inb_S32x64x64_S1x64x64_20_0_0
abbrev rOut21 : Rect S32x64x64 := Rect.unit (s := S32x64x64) ![21, 0, 0] S1x64x64.size inb_S32x64x64_S1x64x64_21_0_0
abbrev rOut22 : Rect S32x64x64 := Rect.unit (s := S32x64x64) ![22, 0, 0] S1x64x64.size inb_S32x64x64_S1x64x64_22_0_0
abbrev rOut23 : Rect S32x64x64 := Rect.unit (s := S32x64x64) ![23, 0, 0] S1x64x64.size inb_S32x64x64_S1x64x64_23_0_0
abbrev rOut24 : Rect S32x64x64 := Rect.unit (s := S32x64x64) ![24, 0, 0] S1x64x64.size inb_S32x64x64_S1x64x64_24_0_0
abbrev rOut25 : Rect S32x64x64 := Rect.unit (s := S32x64x64) ![25, 0, 0] S1x64x64.size inb_S32x64x64_S1x64x64_25_0_0
abbrev rOut26 : Rect S32x64x64 := Rect.unit (s := S32x64x64) ![26, 0, 0] S1x64x64.size inb_S32x64x64_S1x64x64_26_0_0
abbrev rOut27 : Rect S32x64x64 := Rect.unit (s := S32x64x64) ![27, 0, 0] S1x64x64.size inb_S32x64x64_S1x64x64_27_0_0
abbrev rOut28 : Rect S32x64x64 := Rect.unit (s := S32x64x64) ![28, 0, 0] S1x64x64.size inb_S32x64x64_S1x64x64_28_0_0
abbrev rOut29 : Rect S32x64x64 := Rect.unit (s := S32x64x64) ![29, 0, 0] S1x64x64.size inb_S32x64x64_S1x64x64_29_0_0
abbrev rOut30 : Rect S32x64x64 := Rect.unit (s := S32x64x64) ![30, 0, 0] S1x64x64.size inb_S32x64x64_S1x64x64_30_0_0
abbrev rOut31 : Rect S32x64x64 := Rect.unit (s := S32x64x64) ![31, 0, 0] S1x64x64.size inb_S32x64x64_S1x64x64_31_0_0

/-- The body's 32 stores, last first: row i of the result's buffer takes the body's arithmetic of the two factors and row i of the operand's buffer. -/
def outPieces (x0 : Vec F S32x196x768 .f32) (x1 : Vec F S64x768 .f32) (x2 : Vec F S196x64 .f32) : List (View.Piece (Elt F) S32x64x64 .f32) :=
  [
    ⟨rOut31, k0_pay44 (k0_pay1 (View.ld x1 rA)) (k0_pay2 (View.ld x2 rB)) (View.ld x0 rIn31)⟩,
    ⟨rOut30, k0_pay43 (k0_pay1 (View.ld x1 rA)) (k0_pay2 (View.ld x2 rB)) (View.ld x0 rIn30)⟩,
    ⟨rOut29, k0_pay42 (k0_pay2 (View.ld x2 rB)) (k0_pay41 (k0_pay1 (View.ld x1 rA)) (View.ld x0 rIn29))⟩,
    ⟨rOut28, k0_pay40 (k0_pay1 (View.ld x1 rA)) (k0_pay2 (View.ld x2 rB)) (View.ld x0 rIn28)⟩,
    ⟨rOut27, k0_pay39 (k0_pay1 (View.ld x1 rA)) (k0_pay2 (View.ld x2 rB)) (View.ld x0 rIn27)⟩,
    ⟨rOut26, k0_pay38 (k0_pay2 (View.ld x2 rB)) (k0_pay37 (k0_pay1 (View.ld x1 rA)) (View.ld x0 rIn26))⟩,
    ⟨rOut25, k0_pay36 (k0_pay1 (View.ld x1 rA)) (k0_pay2 (View.ld x2 rB)) (View.ld x0 rIn25)⟩,
    ⟨rOut24, k0_pay35 (k0_pay1 (View.ld x1 rA)) (k0_pay2 (View.ld x2 rB)) (View.ld x0 rIn24)⟩,
    ⟨rOut23, k0_pay34 (k0_pay2 (View.ld x2 rB)) (k0_pay33 (k0_pay1 (View.ld x1 rA)) (View.ld x0 rIn23))⟩,
    ⟨rOut22, k0_pay32 (k0_pay1 (View.ld x1 rA)) (k0_pay2 (View.ld x2 rB)) (View.ld x0 rIn22)⟩,
    ⟨rOut21, k0_pay31 (k0_pay1 (View.ld x1 rA)) (k0_pay2 (View.ld x2 rB)) (View.ld x0 rIn21)⟩,
    ⟨rOut20, k0_pay30 (k0_pay2 (View.ld x2 rB)) (k0_pay29 (k0_pay1 (View.ld x1 rA)) (View.ld x0 rIn20))⟩,
    ⟨rOut19, k0_pay28 (k0_pay1 (View.ld x1 rA)) (k0_pay2 (View.ld x2 rB)) (View.ld x0 rIn19)⟩,
    ⟨rOut18, k0_pay27 (k0_pay1 (View.ld x1 rA)) (k0_pay2 (View.ld x2 rB)) (View.ld x0 rIn18)⟩,
    ⟨rOut17, k0_pay26 (k0_pay2 (View.ld x2 rB)) (k0_pay25 (k0_pay1 (View.ld x1 rA)) (View.ld x0 rIn17))⟩,
    ⟨rOut16, k0_pay24 (k0_pay1 (View.ld x1 rA)) (k0_pay2 (View.ld x2 rB)) (View.ld x0 rIn16)⟩,
    ⟨rOut15, k0_pay23 (k0_pay1 (View.ld x1 rA)) (k0_pay2 (View.ld x2 rB)) (View.ld x0 rIn15)⟩,
    ⟨rOut14, k0_pay22 (k0_pay2 (View.ld x2 rB)) (k0_pay21 (k0_pay1 (View.ld x1 rA)) (View.ld x0 rIn14))⟩,
    ⟨rOut13, k0_pay20 (k0_pay1 (View.ld x1 rA)) (k0_pay2 (View.ld x2 rB)) (View.ld x0 rIn13)⟩,
    ⟨rOut12, k0_pay19 (k0_pay1 (View.ld x1 rA)) (k0_pay2 (View.ld x2 rB)) (View.ld x0 rIn12)⟩,
    ⟨rOut11, k0_pay18 (k0_pay2 (View.ld x2 rB)) (k0_pay17 (k0_pay1 (View.ld x1 rA)) (View.ld x0 rIn11))⟩,
    ⟨rOut10, k0_pay16 (k0_pay1 (View.ld x1 rA)) (k0_pay2 (View.ld x2 rB)) (View.ld x0 rIn10)⟩,
    ⟨rOut9, k0_pay15 (k0_pay1 (View.ld x1 rA)) (k0_pay2 (View.ld x2 rB)) (View.ld x0 rIn9)⟩,
    ⟨rOut8, k0_pay14 (k0_pay2 (View.ld x2 rB)) (k0_pay13 (k0_pay1 (View.ld x1 rA)) (View.ld x0 rIn8))⟩,
    ⟨rOut7, k0_pay12 (k0_pay1 (View.ld x1 rA)) (k0_pay2 (View.ld x2 rB)) (View.ld x0 rIn7)⟩,
    ⟨rOut6, k0_pay11 (k0_pay1 (View.ld x1 rA)) (k0_pay2 (View.ld x2 rB)) (View.ld x0 rIn6)⟩,
    ⟨rOut5, k0_pay10 (k0_pay2 (View.ld x2 rB)) (k0_pay9 (k0_pay1 (View.ld x1 rA)) (View.ld x0 rIn5))⟩,
    ⟨rOut4, k0_pay8 (k0_pay1 (View.ld x1 rA)) (k0_pay2 (View.ld x2 rB)) (View.ld x0 rIn4)⟩,
    ⟨rOut3, k0_pay7 (k0_pay1 (View.ld x1 rA)) (k0_pay2 (View.ld x2 rB)) (View.ld x0 rIn3)⟩,
    ⟨rOut2, k0_pay6 (k0_pay2 (View.ld x2 rB)) (k0_pay5 (View.ld x1 rA) (View.ld x0 rIn2))⟩,
    ⟨rOut1, k0_pay4 (View.ld x1 rA) (View.ld x2 rB) (View.ld x0 rIn1)⟩,
    ⟨rOut0, k0_pay3 (View.ld x1 rA) (View.ld x2 rB) (View.ld x0 rIn0)⟩ ]

end Cert.KernelIdeal.Hand

end
-- ==== Proof.KernelIdealRows.lean ====
/-
  The kernel body, run once on its four staging buffers.

  The body is thirty-two copies of one computation, one per row i of its block: it loads the [1, 196, 768] slab
  x_i of the operand's buffer, forms  t = x_i · Aᵀ  (196×64) and then  tᵀ · B  (64×64) on the matrix unit, and stores
  that as the [1, 64, 64] slab i of the result's buffer; the two factors A and B are loaded whole, once. So the
  result's buffer ends, row by row, as ONE function of the two factors and of the SAME row of the operand's buffer
  (`rowsOut`), whatever it held before; the other three buffers are left as found. In particular rows of the
  result past a given row count depend only on rows of the operand past it: what the body makes of the part of
  the operand's buffer that a cut fetch did not fill stays in the part of the result's buffer that a cut
  write-back does not move (`cut_rowsOut`).
-/
import proofs.«128411_j31636729102794_1_alg».proof.Proof.KernelIdealPieces
import proofs.«128411_j31636729102794_1_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the stores leave -/

/-- The result's buffer after the body: its thirty-two stores laid over one another. -/
def out0_3 (x0 : Vec F S32x196x768 .f32) (x1 : Vec F S64x768 .f32) (x2 : Vec F S196x64 .f32) : Vec F S32x64x64 .f32 :=
  View.canon (outPieces x0 x1 x2)

/-- The thirty-two row slabs tile the buffer. -/
theorem cover0_3 (x0 : Vec F S32x196x768 .f32) (x1 : Vec F S64x768 .f32) (x2 : Vec F S196x64 .f32) (y : S32x64x64.Idx) :
    ∃ pc ∈ outPieces x0 x1 x2, y ∈ pc.1.set :=
  View.cover_of_tiled (outPieces x0 x1 x2) S1x64x64.size (by rfl) y

/-! ## The body's triple -/

set_option maxHeartbeats 4000000 in
/-- The body on whole staging memrefs — the operand's and the two factors' at read contents `x0`, `x1`, `x2`, the
    result's at anything — runs to the continuation holding the first three as they were and the result's at
    `out0_3` of them. -/
theorem sound_kernel (c : Dev nD) (E : Set ℕ) (i : grid0.Coords) (arg1 : Memref sig .tc .vmem S32x196x768 .f32) (harg1 : arg1.IsWhole) (arg2 : Memref sig .tc .vmem S64x768 .f32) (harg2 : arg2.IsWhole) (arg3 : Memref sig .tc .vmem S196x64 .f32) (harg3 : arg3.IsWhole) (arg4 : Memref sig .tc .vmem S32x64x64 .f32) (harg4 : arg4.IsWhole)
    (x0 : Vec F S32x196x768 .f32) (x1 : Vec F S64x768 .f32) (x2 : Vec F S196x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

/-! ## The result's buffer, row by row -/

/-- Row `r` of a [32, 196, 768] buffer, as a [1, 196, 768] slab. -/
def rowOf (X : Vec F S32x196x768 .f32) (r : Fin 32) : Vec F S1x196x768 .f32 := fun z => X (ix3 r (z 1) (z 2))

/-- The result's buffer as one function of the other three: entry (r, a, h) is the body's arithmetic of the two
    factors and row `r` of the operand's buffer, at (0, a, h). -/
def rowsOut (X0 : Vec F S32x196x768 .f32) (X1 : Vec F S64x768 .f32) (X2 : Vec F S196x64 .f32) : Vec F S32x64x64 .f32 :=
  fun y => k0_pay3 (View.ld X1 rA) (View.ld X2 rB) (rowOf X0 (y 0)) (ix3 0 (y 1) (y 2))

/-- The store through row `r`'s slab of the arithmetic of row `r`'s slab of the operand is `rowsOut` there. -/
theorem piece_row (r : Nat) (inbI : ∀ a, (![r, 0, 0] : Fin 3 → Nat) a + S1x196x768.size a ≤ S32x196x768.size a)
    (inbO : ∀ a, (![r, 0, 0] : Fin 3 → Nat) a + S1x64x64.size a ≤ S32x64x64.size a)
    (x0 : Vec F S32x196x768 .f32) (x1 : Vec F S64x768 .f32) (x2 : Vec F S196x64 .f32) (x : S1x64x64.Idx) :
    k0_pay3 (View.ld x1 rA) (View.ld x2 rB) (View.ld x0 (Rect.unit (s := S32x196x768) ![r, 0, 0] S1x196x768.size inbI)) x
      = rowsOut x0 x1 x2 ((Rect.unit (s := S32x64x64) ![r, 0, 0] S1x64x64.size inbO).emb x) := by
  unfold rowsOut
  have hx0 : (x 0).val = 0 := by have := (x 0).isLt; simp at this; omega
  have e1 : View.ld x0 (Rect.unit (s := S32x196x768) ![r, 0, 0] S1x196x768.size inbI)
      = rowOf x0 ((Rect.unit (s := S32x64x64) ![r, 0, 0] S1x64x64.size inbO).emb x 0) := by
    funext z
    have hz0 : (z 0).val = 0 := by have := (z 0).isLt; simp at this; omega
    show x0 _ = x0 _
    refine congrArg x0 (funext fun a => Fin.ext ?_)
    match a with
    | ⟨0, _⟩ => show r + 1 * (z 0).val = r + 1 * (x 0).val; rw [hz0, hx0]
    | ⟨1, _⟩ => show 0 + 1 * (z 1).val = (z 1).val; omega
    | ⟨2, _⟩ => show 0 + 1 * (z 2).val = (z 2).val; omega
  have e2 : x = ix3 0 ((Rect.unit (s := S32x64x64) ![r, 0, 0] S1x64x64.size inbO).emb x 1)
      ((Rect.unit (s := S32x64x64) ![r, 0, 0] S1x64x64.size inbO).emb x 2) := by
    funext a; refine Fin.ext ?_
    match a with
    | ⟨0, _⟩ => exact hx0
    | ⟨1, _⟩ => show (x 1).val = 0 + 1 * (x 1).val; omega
    | ⟨2, _⟩ => show (x 2).val = 0 + 1 * (x 2).val; omega
  rw [← e1]
  exact congrArg (k0_pay3 (View.ld x1 rA) (View.ld x2 rB) (View.ld x0 (Rect.unit (s := S32x196x768) ![r, 0, 0] S1x196x768.size inbI))) e2

/-- Every store's payload is `rowsOut` through its rectangle. -/
theorem pieces_rows (x0 : Vec F S32x196x768 .f32) (x1 : Vec F S64x768 .f32) (x2 : Vec F S196x64 .f32) :
    ∀ p ∈ outPieces x0 x1 x2, ∀ x : p.1.shape.Idx, p.2 x = rowsOut x0 x1 x2 (p.1.emb x) := by
  intro p hp
  simp only [outPieces, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact fun x => piece_row _ (by decide) (by decide) x0 x1 x2 x

/-- So the stores leave `rowsOut`. -/
theorem out0_3_eq (x0 : Vec F S32x196x768 .f32) (x1 : Vec F S64x768 .f32) (x2 : Vec F S196x64 .f32) :
    out0_3 x0 x1 x2 = rowsOut x0 x1 x2 :=
  funext fun y => View.canon_apply_of_pieces (rowsOut x0 x1 x2) (outPieces x0 x1 x2) (pieces_rows x0 x1 x2) y (cover0_3 x0 x1 x2 y)

/-! ## Rows that a cut write-back moves come from rows that the cut fetch filled -/

/-- The operand's and the result's windows are cut alike on the row axis and not at all on the other two, so the
    rows of the result's buffer that a write-back at point `t` moves are computed from rows of the operand's buffer that
    the fetch at `t` filled: what the rest of the operand's buffer holds (`d`, `d'`) does not reach them. -/
theorem cut_rowsOut (t : Fin cfg0.N) (d d' : S32x196x768.Idx → Elt F .f32)
    (g : (win0_0.xblock (grid0.coords t)).Idx → Elt F .f32) (X1 : Vec F S64x768 .f32) (X2 : Vec F S196x64 .f32) :
    win0_3.cut (grid0.coords t) (rowsOut (win0_0.fill (grid0.coords t) d g) X1 X2)
      = win0_3.cut (grid0.coords t) (rowsOut (win0_0.fill (grid0.coords t) d' g) X1 X2) := by
  funext j
  show rowsOut _ X1 X2 (win0_3.xinj (grid0.coords t) j) = rowsOut _ X1 X2 (win0_3.xinj (grid0.coords t) j)
  unfold rowsOut
  have e : rowOf (win0_0.fill (grid0.coords t) d g) (win0_3.xinj (grid0.coords t) j 0)
      = rowOf (win0_0.fill (grid0.coords t) d' g) (win0_3.xinj (grid0.coords t) j 0) := by
    funext z
    unfold rowOf
    have hm : win0_0.moved (grid0.coords t) (ix3 (win0_3.xinj (grid0.coords t) j 0) (z 1) (z 2)) = true :=
      (win0_0.moved_iff _ _).mpr fun a => by
        match a with
        | ⟨0, _⟩ => exact (j 0).isLt
        | ⟨1, _⟩ => exact (z 1).isLt
        | ⟨2, _⟩ => exact (z 2).isLt
    unfold Window.fill
    rw [dif_pos hm, dif_pos hm]
  rw [e]

end Cert.KernelIdeal.Hand

end
-- ==== Proof.KernelIdealFrame.lean ====
/-
  The frame of the program: its one region, a grid of fifty points over the 1576 rows in blocks of thirty-two.

  1576 = 49·32 + 8, so the last block of the operand and of the result overhangs its array by twenty-four rows: the
  fetch there fills the first eight rows of the staging buffer and leaves the rest at words nothing names, and the
  write-back moves the first eight rows of the result's buffer and nothing else. The body treats every row of its
  block alike and by itself (Rows), so at every point the result's buffer is, on the rows the write-back moves, one
  function of the two factors and of the operand's rows there — which is all the pipeline's body obligation asks of a
  window whose blocks may be cut. The proof data: each array as the region finds it; after the body the operand's
  buffer at its block (filled out past the array's end with the zero word, which nothing reads), the factors' at
  theirs, the result's at `rowsOut` of those.
-/
import proofs.«128411_j31636729102794_1_alg».proof.Proof.KernelIdealRows

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The operand's block at point `t` — its rows inside the array — filled out to a whole buffer with the zero word. -/
def xfill (c : Dev nD) (t : Fin cfg0.N) : Vec F S32x196x768 .f32 :=
  win0_0.fill (grid0.coords t) (fun _ => Scalar.ofBits .f32 0#32) (iblk m c 0 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => rowsOut (xfill m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = rowsOut (xfill m c t) (iblk m c 1 t) (iblk m c 2 t) := by dsimp only [dats]

/-- The operand's buffer is fetched at every point: the body finds its block on the rows the fetch filled and `d`,
    anything, on the others. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]
/-- The factors' buffers hold the factors at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the operand's and the result's buffers stated on the part their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- the operand's buffer is as found: its block on the filled rows, `d0` on the others
  have h0 : win0_0.fill (grid0.coords t) d0 (win0_0.cut (grid0.coords t) (xfill m c t))
      = win0_0.fill (grid0.coords t) d0 (iblk m c 0 t) := by
    unfold xfill; rw [win0_0.cut_fill]
  -- the result's buffer on the rows the write-back moves does not see `d0`
  have h3 : win0_3.fill (grid0.coords t) (out0_3 (win0_0.fill (grid0.coords t) d0 (iblk m c 0 t)) (iblk m c 1 t) (iblk m c 2 t))
        (win0_3.cut (grid0.coords t) (rowsOut (xfill m c t) (iblk m c 1 t) (iblk m c 2 t)))
      = out0_3 (win0_0.fill (grid0.coords t) d0 (iblk m c 0 t)) (iblk m c 1 t) (iblk m c 2 t) := by
    rw [out0_3_eq]
    unfold xfill
    rw [cut_rowsOut t _ d0 (iblk m c 0 t) (iblk m c 1 t) (iblk m c 2 t), win0_3.fill_cut]
  isplitl [H0]
  · iexists d0
    change _ ⊢ owns (c : Thread nD τ) (st0_0 t) fullShare (win0_0.fill (grid0.coords t) d0 (win0_0.cut (grid0.coords t) (xfill m c t)))
    rw [h0]
  isplitl [H1]; · iexact H1
  isplitl [H2]; · iexact H2
  iexists (out0_3 (win0_0.fill (grid0.coords t) d0 (iblk m c 0 t)) (iblk m c 1 t) (iblk m c 2 t))
  change _ ⊢ owns (c : Thread nD τ) (st0_3 t) fullShare (win0_3.fill (grid0.coords t) (out0_3 (win0_0.fill (grid0.coords t) d0 (iblk m c 0 t)) (iblk m c 1 t) (iblk m c 2 t))
    (win0_3.cut (grid0.coords t) (rowsOut (xfill m c t) (iblk m c 1 t) (iblk m c 2 t))))
  rw [h3]

/-- The pipeline's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the pipeline at
    what the proof data computes and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  What both programs compute, as one function of the three argument arrays, read over the extended reals.

  For a batch entry b, a patch n, a row a of the first factor and a column h of the second,
      out[b, n, a, h] = Σ_p ( Σ_c A[a, c] · x[b, n, p, c] ) · B[p, h],
  the product  A · x[b, n]ᵀ · B  of a 64×768, a 768×196 and a 196×64 matrix, with the inner sum taken first.
  The same function is stated once more for the array with its two leading axes merged (row r = b·197 + n of
  1576), which is how the kernel sees its operand.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arguments, of the result, and of their forms with the two leading axes merged. -/
abbrev SX : Shape := ⟨4, ![8, 197, 196, 768]⟩
abbrev SA : Shape := ⟨2, ![64, 768]⟩
abbrev SB : Shape := ⟨2, ![196, 64]⟩
abbrev SO : Shape := ⟨4, ![8, 197, 64, 64]⟩
abbrev SX3 : Shape := ⟨3, ![1576, 196, 768]⟩
abbrev SO3 : Shape := ⟨3, ![1576, 64, 64]⟩

/-- One entry of  A · Xᵀ · B  for a 196×768 matrix X given by its entries: the inner sum over the 768 channels
    first, then the sum over the 196 positions. -/
def entry (X : Fin 196 → Fin 768 → EReal) (A : FVec Ideal SA .f32) (B : FVec Ideal SB .f32) (a : Fin 64) (h : Fin 64) : EReal :=
  ∑ p : Fin 196, (∑ c : Fin 768, A (ix2 a c) * X p c) * B (ix2 p h)

/-- The result over the four-axis arrays. -/
def G (x : FVec Ideal SX .f32) (A : FVec Ideal SA .f32) (B : FVec Ideal SB .f32) : FVec Ideal SO .f32 :=
  fun i => entry (fun p c => x (ix4 (i 0) (i 1) p c)) A B (i 2) (i 3)

/-- The result over the arrays with the two leading axes merged. -/
def G3 (x : FVec Ideal SX3 .f32) (A : FVec Ideal SA .f32) (B : FVec Ideal SB .f32) : FVec Ideal SO3 .f32 :=
  fun j => entry (fun p c => x (ix3 (j 0) p c)) A B (j 1) (j 2)

end Cert.Spec

end
-- ==== Proof.RowValue.lean ====
/-
  One row of the kernel's block, read at an entry.

  For a 196×768 slab X (given with a leading unit axis), a 64×768 matrix A and a 196×64 matrix B the kernel body
  forms  t[p, a'] = Σ_c X[p, c] · A[a', c]  (the slab times the transpose of A), then
  o[a, h] = Σ_p t[p, a] · B[p, h]  (the transpose of t times B), and gives o a leading unit axis. Over the extended
  reals a change of format is the identity and a matrix product into a zero accumulator is the plain sum over the
  contracted axis, so o[a, h] = Σ_p (Σ_c X[p, c] · A[a, c]) · B[p, h]; commuting each inner product gives the
  specification's entry  Σ_p (Σ_c A[a, c] · X[p, c]) · B[p, h].
-/
import proofs.«128411_j31636729102794_1_alg».proof.Proof.Gen.KernelIdeal.Skeleton
import proofs.«128411_j31636729102794_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.RowValue

open Cert.KernelIdeal Cert.KernelIdeal.Gen Idealize.ShloMosaic Idealize.ShloMosaic.ValueIdx

variable [Cert.KernelIdeal.Facts]

/-! ## The first product, [196,768] × [768,64]: operand coordinates at a result index and a contraction index -/

theorem lhs_mmA_0 (i : S196x64.Idx) (q : dot_S196x768_S768x64_S196x64_1_0_0_1_n_n.contr.Idx) :
    (dot_S196x768_S768x64_S196x64_1_0_0_1_n_n.lhsIdx i q 0).val = (i 0).val := by
  unfold DotDims.lhsIdx
  rw [dif_neg (show ¬(0 : Fin S196x768.rank) ∈ dot_S196x768_S768x64_S196x64_1_0_0_1_n_n.lhsBatch by decide), dif_pos (show (0 : Fin S196x768.rank) ∈ dot_S196x768_S768x64_S196x64_1_0_0_1_n_n.lhsNonContracting by decide)]
  rfl
theorem lhs_mmA_1 (i : S196x64.Idx) (q : dot_S196x768_S768x64_S196x64_1_0_0_1_n_n.contr.Idx) :
    (dot_S196x768_S768x64_S196x64_1_0_0_1_n_n.lhsIdx i q 1).val = (q ⟨0, by decide⟩).val :=
  dot_S196x768_S768x64_S196x64_1_0_0_1_n_n.lhsIdx_val_of_single rfl i q
theorem rhs_mmA_0 (i : S196x64.Idx) (q : dot_S196x768_S768x64_S196x64_1_0_0_1_n_n.contr.Idx) :
    (dot_S196x768_S768x64_S196x64_1_0_0_1_n_n.rhsIdx i q 0).val = (q ⟨0, by decide⟩).val :=
  dot_S196x768_S768x64_S196x64_1_0_0_1_n_n.rhsIdx_val_of_single rfl i q
theorem rhs_mmA_1 (i : S196x64.Idx) (q : dot_S196x768_S768x64_S196x64_1_0_0_1_n_n.contr.Idx) :
    (dot_S196x768_S768x64_S196x64_1_0_0_1_n_n.rhsIdx i q 1).val = (i 1).val := by
  unfold DotDims.rhsIdx
  rw [dif_neg (show ¬(1 : Fin S768x64.rank) ∈ dot_S196x768_S768x64_S196x64_1_0_0_1_n_n.rhsBatch by decide), dif_pos (show (1 : Fin S768x64.rank) ∈ dot_S196x768_S768x64_S196x64_1_0_0_1_n_n.rhsNonContracting by decide)]
  rfl

/-- The first product into a zero accumulator at `(r, s)` is the sum over the 768 contracted positions. -/
theorem mmA_apply (x : FVec Ideal S196x768 .bf16) (w : FVec Ideal S768x64 .bf16) (r : Fin 196) (s : Fin 64) :
    matmul dot_S196x768_S768x64_S196x64_1_0_0_1_n_n none x w (constant (F := Ideal) S196x64 .f32 0x00000000#32) (ix2 r s)
      = ∑ k : Fin 768, x (ix2 r k) * w (ix2 k s) := by
  show FloatOps.matmul dot_S196x768_S768x64_S196x64_1_0_0_1_n_n none x w (constant (F := Ideal) S196x64 .f32 0x00000000#32) (ix2 r s) = _
  rw [Ideal.matmul_constant_zero_apply, ← Equiv.sum_comp (contrEquiv1 dot_S196x768_S768x64_S196x64_1_0_0_1_n_n 768 rfl rfl).symm]
  refine Finset.sum_congr rfl fun k _ => ?_
  have hk := contrEquiv1_symm_val dot_S196x768_S768x64_S196x64_1_0_0_1_n_n 768 rfl rfl k
  have el : dot_S196x768_S768x64_S196x64_1_0_0_1_n_n.lhsIdx (ix2 r s) ((contrEquiv1 dot_S196x768_S768x64_S196x64_1_0_0_1_n_n 768 rfl rfl).symm k) = ix2 r k := funext fun a => Fin.ext (by
    match a with
    | ⟨0, _⟩ => exact lhs_mmA_0 _ _
    | ⟨1, _⟩ => exact (lhs_mmA_1 _ _).trans hk)
  have er : dot_S196x768_S768x64_S196x64_1_0_0_1_n_n.rhsIdx (ix2 r s) ((contrEquiv1 dot_S196x768_S768x64_S196x64_1_0_0_1_n_n 768 rfl rfl).symm k) = ix2 k s := funext fun a => Fin.ext (by
    match a with
    | ⟨0, _⟩ => exact (rhs_mmA_0 _ _).trans hk
    | ⟨1, _⟩ => exact rhs_mmA_1 _ _)
  rw [el, er]

/-! ## The second product, [64,196] × [196,64] -/

theorem lhs_mmB_0 (i : S64x64.Idx) (q : dot_S64x196_S196x64_S64x64_1_0_0_1_n_n.contr.Idx) :
    (dot_S64x196_S196x64_S64x64_1_0_0_1_n_n.lhsIdx i q 0).val = (i 0).val := by
  unfold DotDims.lhsIdx
  rw [dif_neg (show ¬(0 : Fin S64x196.rank) ∈ dot_S64x196_S196x64_S64x64_1_0_0_1_n_n.lhsBatch by decide), dif_pos (show (0 : Fin S64x196.rank) ∈ dot_S64x196_S196x64_S64x64_1_0_0_1_n_n.lhsNonContracting by decide)]
  rfl
theorem lhs_mmB_1 (i : S64x64.Idx) (q : dot_S64x196_S196x64_S64x64_1_0_0_1_n_n.contr.Idx) :
    (dot_S64x196_S196x64_S64x64_1_0_0_1_n_n.lhsIdx i q 1).val = (q ⟨0, by decide⟩).val :=
  dot_S64x196_S196x64_S64x64_1_0_0_1_n_n.lhsIdx_val_of_single rfl i q
theorem rhs_mmB_0 (i : S64x64.Idx) (q : dot_S64x196_S196x64_S64x64_1_0_0_1_n_n.contr.Idx) :
    (dot_S64x196_S196x64_S64x64_1_0_0_1_n_n.rhsIdx i q 0).val = (q ⟨0, by decide⟩).val :=
  dot_S64x196_S196x64_S64x64_1_0_0_1_n_n.rhsIdx_val_of_single rfl i q
theorem rhs_mmB_1 (i : S64x64.Idx) (q : dot_S64x196_S196x64_S64x64_1_0_0_1_n_n.contr.Idx) :
    (dot_S64x196_S196x64_S64x64_1_0_0_1_n_n.rhsIdx i q 1).val = (i 1).val := by
  unfold DotDims.rhsIdx
  rw [dif_neg (show ¬(1 : Fin S196x64.rank) ∈ dot_S64x196_S196x64_S64x64_1_0_0_1_n_n.rhsBatch by decide), dif_pos (show (1 : Fin S196x64.rank) ∈ dot_S64x196_S196x64_S64x64_1_0_0_1_n_n.rhsNonContracting by decide)]
  rfl

/-- The second product into a zero accumulator at `(r, s)` is the sum over the 196 contracted positions. -/
theorem mmB_apply (x : FVec Ideal S64x196 .bf16) (w : FVec Ideal S196x64 .bf16) (r : Fin 64) (s : Fin 64) :
    matmul dot_S64x196_S196x64_S64x64_1_0_0_1_n_n none x w (constant (F := Ideal) S64x64 .f32 0x00000000#32) (ix2 r s)
      = ∑ k : Fin 196, x (ix2 r k) * w (ix2 k s) := by
  show FloatOps.matmul dot_S64x196_S196x64_S64x64_1_0_0_1_n_n none x w (constant (F := Ideal) S64x64 .f32 0x00000000#32) (ix2 r s) = _
  rw [Ideal.matmul_constant_zero_apply, ← Equiv.sum_comp (contrEquiv1 dot_S64x196_S196x64_S64x64_1_0_0_1_n_n 196 rfl rfl).symm]
  refine Finset.sum_congr rfl fun k _ => ?_
  have hk := contrEquiv1_symm_val dot_S64x196_S196x64_S64x64_1_0_0_1_n_n 196 rfl rfl k
  have el : dot_S64x196_S196x64_S64x64_1_0_0_1_n_n.lhsIdx (ix2 r s) ((contrEquiv1 dot_S64x196_S196x64_S64x64_1_0_0_1_n_n 196 rfl rfl).symm k) = ix2 r k := funext fun a => Fin.ext (by
    match a with
    | ⟨0, _⟩ => exact lhs_mmB_0 _ _
    | ⟨1, _⟩ => exact (lhs_mmB_1 _ _).trans hk)
  have er : dot_S64x196_S196x64_S64x64_1_0_0_1_n_n.rhsIdx (ix2 r s) ((contrEquiv1 dot_S64x196_S196x64_S64x64_1_0_0_1_n_n 196 rfl rfl).symm k) = ix2 k s := funext fun a => Fin.ext (by
    match a with
    | ⟨0, _⟩ => exact (rhs_mmB_0 _ _).trans hk
    | ⟨1, _⟩ => exact rhs_mmB_1 _ _)
  rw [el, er]

/-! ## The row's value at an entry -/

theorem row_entry (A : Vec Ideal S64x768 .f32) (B : Vec Ideal S196x64 .f32) (X : Vec Ideal S1x196x768 .f32) (a h : Fin 64) :
    k0_pay3 (F := Ideal) A B X (ix3 0 a h) = Cert.Spec.entry (fun p c => X (ix3 0 p c)) A B a h := by
  unfold k0_pay3 k0_pay1 k0_pay2
  -- the unit axis added at the end: the entry (0, a, h) is the second product's entry (a, h)
  refine (shapeCast_ab_1ab_apply _ _ 0 a h).trans ?_
  -- the second product is the sum over the 196 positions
  refine (mmB_apply _ _ a h).trans ?_
  unfold Cert.Spec.entry
  refine Finset.sum_congr rfl fun p _ => ?_
  -- a change of format is the identity; the left factor is the first product transposed, read at (a, p)
  refine congrArg (fun z => z * B (ix2 p h)) ?_
  refine (truncf_apply (s := S64x196) (φ := .f32) (ψ := .bf16) _ bitsLt_bf16_f32 (ix2 a p)).trans ?_
  refine (transpose_ix2_apply _ _ a p).trans ?_
  -- the first product is the sum over the 768 channels
  refine (mmA_apply _ _ p a).trans ?_
  refine Finset.sum_congr rfl fun c _ => ?_
  -- the slab without its unit axis at (p, c) is X at (0, p, c); A transposed at (c, a) is A at (a, c)
  refine (mul_comm _ _).trans ?_
  refine congrArg₂ (fun y z => y * z) ?_ ?_
  · exact (truncf_apply (s := S768x64) (φ := .f32) (ψ := .bf16) _ bitsLt_bf16_f32 (ix2 c a)).trans (transpose_ix2_apply A _ c a)
  · exact (truncf_apply (s := S196x768) (φ := .f32) (ψ := .bf16) _ bitsLt_bf16_f32 (ix2 p c)).trans (shapeCast_1ab_ab_apply X _ p c)

end Cert.RowValue

end
-- ==== Proof.KernelIdealFlushed.lean ====
/-
  What each point of the grid writes back.

  At point t the write-back moves the rows of the result's staging buffer that lie inside the array: all thirty-two
  at points 0 … 48, the first eight at point 49 (1576 = 49·32 + 8). The body left that buffer, row by row, at the
  arithmetic of the two factors and of the same row of the operand's buffer (Rows), and over the extended reals that
  arithmetic is the specification's entry of the row (RowValue). The two factors' windows are whole arrays at block
  (0, 0); the operand's window moves with the result's along the rows, is cut where the result's is, and a row the cut
  fetch filled is row 32·t + r of the operand as the region finds it. So what point t writes back is block t of the
  merged specification G3 of the three arrays as the region finds them, read through the block cut at the array's end.
-/
import proofs.«128411_j31636729102794_1_alg».proof.Proof.KernelIdealFrame
import proofs.«128411_j31636729102794_1_alg».proof.Proof.RowValue
import proofs.«128411_j31636729102794_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

open scoped BigOperators

/-- The zero offset of a rank-2 rectangle, as the constant function. -/
theorem hz2 : (![0, 0] : Fin 2 → Nat) = fun _ => 0 :=
  funext fun a => match a with | ⟨0, _⟩ => rfl | ⟨1, _⟩ => rfl

/-- The printed index maps, decided over the grid: the operand's and the result's windows move together along the
    rows and stay at block 0 on the other two axes; the two factors' windows stay at block (0, 0). -/
theorem idx_facts3 : ∀ t : Fin cfg0.N, win0_0.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first factor's block at any point is the whole array. -/
theorem iblk1_eq (c : Dev nD) (t : Fin cfg0.N) : iblk m c 1 t = V m c main_arg1 := by
  obtain ⟨-, -, -, -, -, e10, e11, -, -⟩ := idx_facts3 t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 64 + 1 * (y 0).val = (y 0).val; rw [e10]; omega
  | ⟨1, _⟩ => show win0_1.index t (1 : Fin 2) * 768 + 1 * (y 1).val = (y 1).val; rw [e11]; omega

/-- The second factor's block at any point is the whole array. -/
theorem iblk2_eq (c : Dev nD) (t : Fin cfg0.N) : iblk m c 2 t = V m c main_arg2 := by
  obtain ⟨-, -, -, -, -, -, -, e20, e21⟩ := idx_facts3 t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 196 + 1 * (y 0).val = (y 0).val; rw [e20]; omega
  | ⟨1, _⟩ => show win0_2.index t (1 : Fin 2) * 64 + 1 * (y 1).val = (y 1).val; rw [e21]; omega

/-- The result's buffer at (r, a, h) is the specification's entry (a, h) of row r of the operand's buffer. -/
theorem rowsOut_apply (X0 : Vec Ideal S32x196x768 .f32) (X1 : Vec Ideal S64x768 .f32) (X2 : Vec Ideal S196x64 .f32)
    (r : Fin 32) (a h : Fin 64) :
    rowsOut X0 X1 X2 (ix3 r a h) = Cert.Spec.entry (fun p c' => X0 (ix3 r p c')) X1 X2 a h := by
  unfold rowsOut
  rw [View.ld_unit_zero hz2, View.ld_unit_zero hz2]
  exact Cert.RowValue.row_entry X1 X2 (rowOf X0 r) a h

/-- Two entries agree when their slabs, rows and columns do. -/
theorem entry_congr {X X' : Fin 196 → Fin 768 → EReal} (A : FVec Ideal Cert.Spec.SA .f32) (B : FVec Ideal Cert.Spec.SB .f32)
    {a a' h h' : Fin 64} (hX : ∀ p c', X p c' = X' p c') (ha : a = a') (hh : h = h') :
    Cert.Spec.entry X A B a h = Cert.Spec.entry X' A B a' h' := by
  subst ha hh
  rw [show X = X' from funext fun p => funext fun c' => hX p c']

/-- A row of the operand's filled-out buffer that the fetch at point `t` filled is that row of the block's part inside
    the array: row `r` of the buffer at (p, c') is the array at (32·t + r, p, c'), given as any index `y` with those
    coordinates. -/
theorem xfill_apply (c : Dev nD) (t : Fin cfg0.N) (r : Fin 32) (p : Fin 196) (c' : Fin 768)
    (hr : r.val < win0_0.xsize (grid0.coords t) 0) (y : S1576x196x768.Idx)
    (h0 : (y 0).val = win0_3.index t (0 : Fin 3) * 32 + r.val) (h1 : (y 1).val = p.val) (h2 : (y 2).val = c'.val) :
    xfill m c t (ix3 r p c') = V m c main_v0 y := by
  obtain ⟨e0, e01, e02, -, -, -, -, -, -⟩ := idx_facts3 t
  have hm : win0_0.moved (grid0.coords t) (ix3 r p c') = true :=
    (win0_0.moved_iff _ _).mpr fun a => by
      match a with
      | ⟨0, _⟩ => exact hr
      | ⟨1, _⟩ => exact p.isLt
      | ⟨2, _⟩ => exact c'.isLt
  unfold xfill Window.fill
  rw [dif_pos hm]
  show V m c main_v0 (((cfg0.win 0).blk t).view.emb _) = _
  refine congrArg (V m c main_v0) (funext fun a => Fin.ext ?_)
  match a with
  | ⟨0, _⟩ => show win0_0.index t (0 : Fin 3) * 32 + 1 * r.val = (y 0).val; rw [h0, e0]; omega
  | ⟨1, _⟩ => show win0_0.index t (1 : Fin 3) * 196 + 1 * p.val = (y 1).val; rw [h1, e01]; omega
  | ⟨2, _⟩ => show win0_0.index t (2 : Fin 3) * 768 + 1 * c'.val = (y 2).val; rw [h2, e02]; omega

/-- WHAT POINT `t` WRITES BACK is block `t` — its rows inside the array — of the merged specification of the arrays as
    the region finds them. -/
theorem flushed3_eq (c : Dev nD) (t : Fin cfg0.N) :
    (dats m 0 c).flushed 3 t = ((cfg0.win 3).blk t).view.read (Elt Ideal) (Cert.Spec.G3 (V m c main_v0) (V m c main_arg1) (V m c main_arg2)) := by
  show (cfg0.win 3).cut (grid0.coords t) ((dats m 0 c).after 3 t) = _
  rw [after0_3]
  funext j
  show rowsOut (xfill m c t) (iblk m c 1 t) (iblk m c 2 t) (win0_3.xinj (grid0.coords t) j) = Cert.Spec.G3 (V m c main_v0) (V m c main_arg1) (V m c main_arg2) (((cfg0.win 3).blk t).view.emb j)
  rw [iblk1_eq, iblk2_eq]
  -- the left side at (r, a, h) is the entry (a, h) of row r of the operand's buffer
  refine (congrArg (rowsOut _ _ _) (eq_ix3 _)).trans ?_
  refine (rowsOut_apply (xfill m c t) (V m c main_arg1) (V m c main_arg2) (win0_3.xinj (grid0.coords t) j 0) (win0_3.xinj (grid0.coords t) j 1) (win0_3.xinj (grid0.coords t) j 2)).trans ?_
  unfold Cert.Spec.G3
  obtain ⟨-, -, -, e31, e32, -, -, -, -⟩ := idx_facts3 t
  refine entry_congr _ _ (fun p c' => ?_) (Fin.ext ?_) (Fin.ext ?_)
  · -- row r of the buffer is row 32·t + r of the array: r is among the rows the cut fetch filled
    refine xfill_apply m c t _ p c' (j 0).isLt _ ?_ rfl rfl
    show win0_3.index t (0 : Fin 3) * 32 + 1 * (j 0).val = win0_3.index t (0 : Fin 3) * 32 + (j 0).val
    omega
  · show (j 1).val = win0_3.index t (1 : Fin 3) * 64 + 1 * (j 1).val
    rw [e31]; omega
  · show (j 2).val = win0_3.index t (2 : Fin 3) * 64 + 1 * (j 2).val
    rw [e32]; omega

end Cert.KernelIdeal.Hand

end
-- ==== Proof.KernelIdealCover.lean ====
/-
  The result's blocks cover its array.

  The result is an array of 1576 rows of 64×64, written back in blocks of thirty-two rows, one block per point of a
  grid of fifty points: point t holds rows 32·t … 32·t + 31, except the last, point 49, whose block would run past
  the array's end (1576 = 49·32 + 8) and is cut to the array's last eight rows, 1568 … 1575. On the other two axes a
  block is the whole 64×64. So row r lies in the block of point r / 32: for r < 1568 because 32·(r / 32) ≤ r <
  32·(r / 32) + 32, and for 1568 ≤ r < 1576 because then r / 32 = 49 and 1568 ≤ r < 1568 + 8. Every point writes its
  block back, so every index of the array is in the block of some point that writes back.
-/
import proofs.«128411_j31636729102794_1_alg».proof.Proof.KernelIdealFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The result's window at each of the fifty points, decided over the grid: its block index is (t, 0, 0), and the
    rows it moves are thirty-two, eight at the last point; the other two axes are moved whole. -/
theorem sched3 : ∀ t : Fin cfg0.N, win0_3.index t 0 = t.val ∧ win0_3.index t 1 = 0 ∧ win0_3.index t 2 = 0
    ∧ win0_3.xsize (grid0.coords t) 0 = (if t.val = 49 then 8 else 32)
    ∧ win0_3.xsize (grid0.coords t) 1 = 64 ∧ win0_3.xsize (grid0.coords t) 2 = 64 :=
  (by decide +kernel : ∀ t : Fin grid0.N, _)

/-- An index of the array is in point `t`'s block iff on each axis its coordinate is at or past the block's start
    and before the start plus what the block moves there. -/
theorem mem_blk3 (t : Fin cfg0.N) (i : S1576x64x64.Idx) :
    i ∈ ((cfg0.win 3).blk t).view.set ↔ ∀ a : Fin 3, win0_3.index t a * S32x64x64.size a ≤ (i a).val
      ∧ (i a).val < win0_3.index t a * S32x64x64.size a + win0_3.xsize (grid0.coords t) a := by
  show i ∈ ((View.whole main_v1).slice (win0_3.rect t)).set ↔ _
  rw [View.set_slice_whole, Rect.mem_set_unit]
  exact Iff.rfl

/-- Every index of the result's array is in the block of a point that writes back: the point row / 32. -/
theorem cover3 (i : S1576x64x64.Idx) : ∃ t : Fin cfg0.N, (cfg0.win 3).flush t = true ∧ i ∈ ((cfg0.win 3).blk t).view.set := by
  have h0 : (i 0).val < 1576 := (i 0).isLt
  have h1 : (i 1).val < 64 := (i 1).isLt
  have h2 : (i 2).val < 64 := (i 2).isLt
  have hN : cfg0.N = 50 := N_0
  obtain ⟨t, ht⟩ : ∃ t : Fin cfg0.N, t.val = (i 0).val / 32 := ⟨⟨(i 0).val / 32, by rw [hN]; omega⟩, rfl⟩
  refine ⟨t, flush0_3 t, ?_⟩
  rw [mem_blk3]
  obtain ⟨e0, e1, e2, x0, x1, x2⟩ := sched3 t
  intro a
  match a with
  | ⟨0, _⟩ =>
    show win0_3.index t 0 * 32 ≤ (i 0).val ∧ (i 0).val < win0_3.index t 0 * 32 + win0_3.xsize (grid0.coords t) 0
    rw [e0, x0]
    by_cases h49 : t.val = 49
    · rw [if_pos h49]; omega
    · rw [if_neg h49]; omega
  | ⟨1, _⟩ =>
    show win0_3.index t 1 * 64 ≤ (i 1).val ∧ (i 1).val < win0_3.index t 1 * 64 + win0_3.xsize (grid0.coords t) 1
    rw [e1, x1]; omega
  | ⟨2, _⟩ =>
    show win0_3.index t 2 * 64 ≤ (i 2).val ∧ (i 2).val < win0_3.index t 2 * 64 + win0_3.xsize (grid0.coords t) 2
    rw [e2, x2]; omega

end Cert.KernelIdeal.Hand

end
-- ==== Proof.KernelIdealFinal.lean ====
/-
  What the result's array holds after the region.

  Every point writes back the rows of its block that lie inside the array (Flushed: they are the specification's rows
  there), and the blocks cover the 1576 rows (Cover): so the array ends at the merged form of the specification, of the
  operand as the region found it and the two factors.
-/
import proofs.«128411_j31636729102794_1_alg».proof.Proof.KernelIdealFlushed
import proofs.«128411_j31636729102794_1_alg».proof.Proof.KernelIdealCover

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- After the fifty points the result's array holds, row by row, the product of the first factor, the transposed row
    of the operand as the region found it, and the second factor. -/
theorem final3 (c : Dev nD) :
    (dats m 0 c).arrAt 3 cfg0.N = Cert.Spec.G3 (V m c main_v0) (V m c main_arg1) (V m c main_arg2) :=
  (dats m 0 c).arrAt_eq_of_cover 3 _ (fun t _ => flushed3_eq m c t) (fun i => cover3 i)

end Cert.KernelIdeal.Hand

end
-- ==== Proof.Reshape.lean ====
/- The specification over the four-axis arrays from the one over the arrays with the two leading axes merged.

   The program merges the two leading axes of x (batch entry b and patch n become the row r = b·197 + n of 1576)
   before its region and splits the leading axis of the region's result back afterwards. A reshape keeps every
   element's row-major position, so the merged array at (b·197 + n, p, c) is x at (b, n, p, c), and the split
   result at (b, n, a, h) is the merged result at (b·197 + n, a, h). With these two readings the merged form of the
   specification, taken of the merged argument and split back, is the four-axis form, entry by entry. -/
import proofs.«128411_j31636729102794_1_alg».proof.Proof.Gen.KernelIdeal
import proofs.«128411_j31636729102794_1_alg».proof.Proof.Spec
import Idealize.ShloMosaic.Lib.ValueIdx
import Idealize.ShloMosaic.Lib.Pipeline.Value

noncomputable section

open scoped BigOperators

namespace Cert.Reshape

open Cert.KernelIdeal Cert.KernelIdeal.Gen Idealize.ShloMosaic Idealize.ShloMosaic.ValueIdx

/-- The merged row of batch entry b and patch n. -/
def row (b : Fin 8) (n : Fin 197) : Fin 1576 := ⟨b.val * 197 + n.val, by omega⟩

theorem row_val (b : Fin 8) (n : Fin 197) : (row b n).val = b.val * 197 + n.val := rfl

/-- The merged argument at (b·197 + n, p, c) is the argument at (b, n, p, c): both have row-major position
    ((b·197 + n)·196 + p)·768 + c. -/
theorem merged_read {α : Type} (x : S8x197x196x768.Idx → α) (b : Fin 8) (n : Fin 197) (p : Fin 196) (c : Fin 768) :
    shapeCast S1576x196x768 x shapeCasts_S8x197x196x768_S1576x196x768 (ix3 (row b n) p c) = x (ix4 b n p c) := by
  refine shapeCast_apply x _ _ _ ?_
  rw [Shape.rowMajor_val_four, Shape.rowMajor_val_three]
  rfl

/-- The split result at (b, n, a, h) is the merged result at (b·197 + n, a, h): both have row-major position
    ((b·197 + n)·64 + a)·64 + h. -/
theorem split_read {α : Type} (y : S1576x64x64.Idx → α) (b : Fin 8) (n : Fin 197) (a : Fin 64) (h : Fin 64) :
    shapeCast S8x197x64x64 y shapeCasts_S1576x64x64_S8x197x64x64 (ix4 b n a h) = y (ix3 (row b n) a h) := by
  refine shapeCast_apply y _ _ _ ?_
  rw [Shape.rowMajor_val_four, Shape.rowMajor_val_three]
  rfl

/-- The merged specification of the merged argument, split back, is the four-axis specification. -/
theorem G_of_G3 (x : FVec Ideal S8x197x196x768 .f32) (A : FVec Ideal S64x768 .f32) (B : FVec Ideal S196x64 .f32) :
    shapeCast S8x197x64x64 (Cert.Spec.G3 (shapeCast S1576x196x768 x shapeCasts_S8x197x196x768_S1576x196x768) A B) shapeCasts_S1576x64x64_S8x197x64x64 = Cert.Spec.G x A B := by
  funext i
  obtain ⟨b, n, a, h, rfl⟩ : ∃ b n a h, i = ix4 b n a h := ⟨_, _, _, _, eq_ix4 i⟩
  rw [split_read]
  unfold Cert.Spec.G3 Cert.Spec.G Cert.Spec.entry
  refine Finset.sum_congr rfl fun p _ => ?_
  congr 1
  refine Finset.sum_congr rfl fun c _ => ?_
  exact congrArg (A (ix2 a c) * ·) (merged_read x b n p c)

end Cert.Reshape

end
-- ==== Proof.KernelIdealValue.lean ====
/-
  The idealized kernel's result, as one function of its arguments.

  The program reshapes x from [8, 197, 196, 768] to [1576, 196, 768] (row r = b·197 + n), runs its region, and
  reshapes the region's [1576, 64, 64] result back to [8, 197, 64, 64]. The region leaves in its result array, row by
  row,  A · x_rᵀ · B  (Final); read through the two reshapes that is the specification's `G` of the three arguments.
-/
import proofs.«128411_j31636729102794_1_alg».proof.Proof.KernelIdealFinal
import proofs.«128411_j31636729102794_1_alg».proof.Proof.Reshape
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The region finds, as its operand, x with its two leading axes merged. -/
theorem V_main_v0 (c : Dev nD) :
    (V m c main_v0 : S1576x196x768.Idx → Elt Ideal .f32)
      = shapeCast S1576x196x768 (m ((c : Thread nD τ).loc main_arg0)) shapeCasts_S8x197x196x768_S1576x196x768 := by
  show StableHlo.after hostOps0 (fun b => m (c, b)) (Proc.devRef .tc main_v0) = _
  after_results
  rfl

/-- The line after the region splits the leading axis of what the region left in its result array. -/
theorem tail_v2 (c : Dev nD) :
    (Pipeline.afterTail₀ cfgs (dats m) 0 (V0 m) [hostOps1] c main_v2 : S8x197x64x64.Idx → Elt Ideal .f32)
      = shapeCast S8x197x64x64 ((dats m 0 c).arrAt 3 cfg0.N) shapeCasts_S1576x64x64_S8x197x64x64 := by
  unfold Pipeline.afterTail₀
  show StableHlo.after hostOps1 _ (Proc.devRef .tc main_v2) = _
  after_results
  rw [Pipeline.withArrays_arr spec0 launch0.win.arr_inj c _ _ 3]
  rfl

/-- The result: `G` of the three arguments. -/
theorem result_eq (c : Dev nD) :
    (Pipeline.afterTail₀ cfgs (dats m) 0 (V0 m) [hostOps1] c main_v2 : S8x197x64x64.Idx → Elt Ideal .f32)
      = Cert.Spec.G (m ((c : Thread nD τ).loc main_arg0)) (m ((c : Thread nD τ).loc main_arg1)) (m ((c : Thread nD τ).loc main_arg2)) := by
  rw [tail_v2, final3, V_main_v0, V_main_arg1, V_main_arg2]
  exact Cert.Reshape.G_of_G3 _ _ _

/-- Every weakly fair execution of the idealized kernel's @main terminates with its result at `G` of the arguments and
    the arguments as they were. -/
theorem run_value : θ_run defs (onTc (τ := τ) (main (F := Ideal))) ⟨m, fun _ => 0, ρ⟩ fun r => ∀ c : Dev nD,
      r.2.mem ((c.tc : Thread nD τ).loc main_v2)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.Hand

end
-- ==== Proof.RefRead.lean ====
/- The reference's result read at an index, identified with the specification.

   The reference is two contractions with a transposition between them:
     v0[a, b, n, p] = Σ_c A[a, c] · x[b, n, p, c],
     v1[b, n, a, p] = v0[a, b, n, p],
     v2[b, n, a, h] = Σ_p v1[b, n, a, p] · B[p, h].
   Read at an index (b, n, a, h) this is  Σ_p ( Σ_c A[a, c] · x[b, n, p, c] ) · B[p, h],  the specification's
   double sum with the inner sum taken first; only the index functions have to be identified, coordinate by
   coordinate. -/
import proofs.«128411_j31636729102794_1_alg».proof.Proof.Gen.ReferenceIdeal.Run
import proofs.«128411_j31636729102794_1_alg».proof.Proof.Gen.ReferenceIdeal.Read
import proofs.«128411_j31636729102794_1_alg».proof.Proof.Spec
import Idealize.ShloMosaic.Lib.ValueIdx

noncomputable section

open scoped BigOperators

namespace Cert.RefRead

open Idealize.ShloMosaic Idealize.ShloMosaic.ValueIdx Cert.ReferenceIdeal Cert.ReferenceIdeal.Read

/-- The left operand of the second contraction is read at (b, n, a, p); through the transposition that is the
    first contraction's (a, b, n, p), whose left operand is read at (a, c). -/
theorem lidx_eq (i : S8x197x64x64.Idx) (p : Fin 196) (c : Fin 768) :
    lidx_main_v0 (idx_main_v1 (lidx_main_v2 i p)) c = ix2 (i 2) c :=
  funext fun a => Fin.ext (by
    match a with
    | ⟨0, _⟩ => rfl
    | ⟨1, _⟩ => rfl)

/-- … and whose right operand is read at (b, n, p, c). -/
theorem ridx_eq (i : S8x197x64x64.Idx) (p : Fin 196) (c : Fin 768) :
    ridx_main_v0 (idx_main_v1 (lidx_main_v2 i p)) c = ix4 (i 0) (i 1) p c :=
  funext fun a => Fin.ext (by
    match a with
    | ⟨0, _⟩ => rfl
    | ⟨1, _⟩ => rfl
    | ⟨2, _⟩ => rfl
    | ⟨3, _⟩ => rfl)

/-- The right operand of the second contraction is read at (p, h). -/
theorem ridx2_eq (i : S8x197x64x64.Idx) (p : Fin 196) :
    ridx_main_v2 i p = ix2 p (i 3) :=
  funext fun a => Fin.ext (by
    match a with
    | ⟨0, _⟩ => rfl
    | ⟨1, _⟩ => rfl)

/-- The reference's result is the specification's double sum. -/
theorem ref_eq (x : FVec Ideal Cert.ReferenceIdeal.S8x197x196x768 .f32) (A : FVec Ideal Cert.ReferenceIdeal.S64x768 .f32)
    (B : FVec Ideal Cert.ReferenceIdeal.S196x64 .f32) :
    Cert.ReferenceIdeal.Read.val_main_v2 (F := Ideal) x A B = Cert.Spec.G x A B := by
  funext i
  rw [val_main_v2_apply]
  unfold Cert.Spec.G Cert.Spec.entry
  refine Finset.sum_congr rfl fun p _ => ?_
  rw [val_main_v1_apply, val_main_v0_apply, ridx2_eq]
  congr 1
  refine Finset.sum_congr rfl fun c _ => ?_
  rw [lidx_eq, ridx_eq]
  rfl

end Cert.RefRead

end
-- ==== Proof.lean ====
/-
  A kernel for  out[b, n] = A · x[b, n]ᵀ · B  (x : [8, 197, 196, 768], A : [64, 768], B : [196, 64]) against a reference
  written as two tensor contractions: the claims of Defs.lean.

  The kernel merges the two leading axes of x (1576 rows), runs a grid of fifty points over the rows in blocks of
  thirty-two — the last block overhangs the array by twenty-four rows, so its fetch and its write-back are cut to
  eight —, and at each point computes, row by row on the matrix unit with operands narrowed to bf16,
  t = x_r · Aᵀ and then tᵀ · B. Over the extended reals narrowing is the identity and a matrix product into a zero
  accumulator is the plain sum, so row r of the result is  Σ_p (Σ_c x_r[p, c] · A[a, c]) · B[p, h];  the reference
  computes  Σ_p (Σ_c A[a, c] · x[b, n, p, c]) · B[p, h]  by two dot_generals and a transpose: the same nested sums, equal
  by commutativity of the product alone (no distributivity, so the precondition is never opened).

  The frames of both kernel programs are one argument, written generically in the float instance (Rows, Frame): the body
  treats each row of its block by itself, so what a cut fetch leaves unnamed in the operand's buffer stays in the part of
  the result's buffer that the cut write-back does not move. The reference's frame is its run with the result dropped;
  the idealization rewrote nothing, so `preserves` is trivial.
-/
import proofs.«128411_j31636729102794_1_alg».proof.Defs
import proofs.«128411_j31636729102794_1_alg».proof.Proof.Gen.Kernel
import proofs.«128411_j31636729102794_1_alg».proof.Proof.Gen.KernelIdeal
import proofs.«128411_j31636729102794_1_alg».proof.Proof.Gen.ReferenceIdeal
import proofs.«128411_j31636729102794_1_alg».proof.Proof.Gen.Pre_finite_inputs
import proofs.«128411_j31636729102794_1_alg».proof.Proof.KernelFrame
import proofs.«128411_j31636729102794_1_alg».proof.Proof.KernelIdealValue
import proofs.«128411_j31636729102794_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs, faults nowhere and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is three host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with  A · x[b, n]ᵀ · B  in their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.RefRead.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
